-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128 : Shape := ⟨1, ![128]⟩
abbrev S128x256 : Shape := ⟨2, ![128, 256]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v29 : IVec S_ 1) (main_v33 : IVec S600000 1) (main_c_11 : IVec S_ 1) : IVec S_ 1 :=
  let main_v34 : IVec S_ 1 := (fun x v => Host.reduce IntOp.andi x v reducesTo_S600000_S_d0 h_S_) main_v33 main_c_11
  let main_v35 : IVec S_ 1 := andi main_v29 main_v34
  main_v35

def fn_part1 {F : FTy → Type} [FloatOps F] (main_arg1 : IVec S2x600000 32) (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x600000 32 := (extractStridedSlice S1x600000 ![0, 0] · slices_S2x600000_S1x600000_0_0) main_arg1
  let main_v25 : IVec S600000 32 := shapeCast S600000 main_v24 shapeCasts_S1x600000_S600000
  let main_c_8 : IVec S_ 32 := constantI S_ 32 4294917296#32
  let main_v26 : IVec S600000 32 := broadcastInDim S600000 ![] bcast_S_S600000 main_c_8
  let main_v27 : IVec S600000 1 := cmpi .sge main_v25 main_v26
  let main_c_9 : IVec S_ 1 := constantI S_ 1 1#1
  let main_v28 : IVec S_ 1 := (fun x v => Host.reduce IntOp.andi x v reducesTo_S600000_S_d0 h_S_) main_v27 main_c_9
  let main_v29 : IVec S_ 1 := andi main_v23 main_v28
  let main_v30 : IVec S1x600000 32 := (extractStridedSlice S1x600000 ![0, 0] · slices_S2x600000_S1x600000_0_0) main_arg1
  let main_v31 : IVec S600000 32 := shapeCast S600000 main_v30 shapeCasts_S1x600000_S600000
  let main_c_10 : IVec S_ 32 := constantI S_ 32 50000#32
  let main_v32 : IVec S600000 32 := broadcastInDim S600000 ![] bcast_S_S600000 main_c_10
  let main_v33 : IVec S600000 1 := cmpi .slt main_v31 main_v32
  let main_c_11 : IVec S_ 1 := constantI S_ 1 1#1
  fn_part2 (F := F) main_v29 main_v33 main_c_11

def fn {F : FTy → Type} [FloatOps F] (main_arg0 : FVec F S50000x128 .f32) (main_arg1 : IVec S2x600000 32) (main_arg2 : FVec F S128 .f32) (main_arg3 : FVec F S128 .f32) (main_arg4 : FVec F S128x256 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_v13 main_v16
-- ==== Kernel.lean ====
abbrev S50000x128 : Shape := ⟨2, ![50000, 128]⟩
abbrev S2x600000 : Shape := ⟨2, ![2, 600000]⟩
abbrev S128 : Shape := ⟨1, ![128]⟩
abbrev S128x256 : Shape := ⟨2, ![128, 256]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S1000x128 : Shape := ⟨2, ![1000, 128]⟩
abbrev S1000x1 : Shape := ⟨2, ![1000, 1]⟩
abbrev S1000 : Shape := ⟨1, ![1000]⟩
abbrev S1 : Shape := ⟨1, ![1]⟩
abbrev S1x1 : Shape := ⟨2, ![1, 1]⟩
abbrev S600000x128 : Shape := ⟨2, ![600000, 128]⟩
abbrev S128x128 : Shape := ⟨2, ![128, 128]⟩

abbrev nBuf : Space → Nat
  | .hbm => 67
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S50000, .f32⟩
  | .hbm, ⟨14, _⟩ => ⟨S600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000, .f32⟩
  | .hbm, ⟨29, _⟩ => ⟨S50000x1, .f32⟩
  | .hbm, ⟨30, _⟩ => ⟨S1x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S1, .i32⟩
  | .hbm, ⟨43, _⟩ => ⟨S_, .i32⟩
  | .hbm, ⟨44, _⟩ => ⟨S600000x1, .i32⟩
  | .hbm, ⟨45, _⟩ => ⟨S600000x1, .i1⟩
  | .hbm, ⟨46, _⟩ => ⟨S1x1, .i32⟩
  | .hbm, ⟨47, _⟩ => ⟨S600000x1, .i32⟩
  | .hbm, ⟨48, _⟩ => ⟨S600000x1, .i1⟩
  | .hbm, ⟨49, _⟩ => ⟨S600000x1, .i1⟩
  | .hbm, ⟨50, _⟩ => ⟨S_, .i1⟩
  | .hbm, ⟨51, _⟩ => ⟨S600000, .i1⟩
  | .hbm, ⟨52, _⟩ => ⟨S600000x128, .f32⟩
  | .hbm, ⟨53, _⟩ => ⟨S600000x128, .i1⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1x128, .f32⟩
  | .local _ .vmem, ⟨3, _⟩ => ⟨S1x128, .f32⟩
  | .local _ .vmem, ⟨4, _⟩ => ⟨S1000x1, .f32⟩
  | .local _ .vmem, ⟨5, _⟩ => ⟨S1000x1, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x1, .f32⟩
  | .local _ .vmem, ⟨15, _⟩ => ⟨S1000x1, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1000x128, .f32⟩
  | .local _ .vmem, ⟨20, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v22 : Ref sig .tc := ⟨.hbm, 56, rfl⟩
abbrev main_cst_4 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  reduces_S1000x128_S1000 : S1000x128.Reduces [1] S1000
  shapeCasts_S1000_S1000x1 : S1000.ShapeCasts S1000x1
  broadcasts_S1000x1_S1000x128 : S1000x1.Broadcasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S50000x1.size a
  hwx0_3 : ∀ i : grid0.Coords, EltTy.bits .f32 = 32 ∨ (Rect.block (s := S50000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S50000x128.size a
  hwx1_6 : ∀ i : grid1.Coords, EltTy.bits .f32 = 32 ∨ (Rect.block (s := S50000x128) S1000x128.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128 : Shape := ⟨1, ![128]⟩
abbrev S128x256 : Shape := ⟨2, ![128, 256]⟩
abbrev S1x600000 : Shape := ⟨2, ![1, 600000]⟩
abbrev S600000 : Shape := ⟨1, ![600000]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S600000x1 : Shape := ⟨2, ![600000, 1]⟩
abbrev S600000x128 : Shape := ⟨2, ![600000, 128]⟩
abbrev S50000x256 : Shape := ⟨2, ![50000, 256]⟩
abbrev S256x128 : Shape := ⟨2, ![256, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S50000, .f32⟩
  | .hbm, ⟨12, _⟩ => ⟨S50000x1, .f32⟩
  | .hbm, ⟨13, _⟩ => ⟨S_, .f32⟩
  | .hbm, ⟨14, _⟩ => ⟨S50000x1, .f32⟩
  | .hbm, ⟨15, _⟩ => ⟨S50000x1, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S_, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S600000, .f32⟩
  | .hbm, ⟨41, _⟩ => ⟨S_, .f32⟩
  | .hbm, ⟨42, _⟩ => ⟨S50000, .f32⟩
  | .hbm, ⟨43, _⟩ => ⟨S600000x1, .i32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S600000x1, .i32⟩
  | .hbm, ⟨52, _⟩ => ⟨S50000, .f32⟩
  | .hbm, ⟨53, _⟩ => ⟨S_, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x256, .f32⟩
  | .hbm, ⟨79, _⟩ => ⟨S256x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics of one GCN layer on the extended reals, entry by entry.

  A node's feature row `x : Fin 128 → EReal` is normalised: its mean `μ = (∑ x) / 128`, its deviations `d q = x q − μ`,
  its variance `σ² = (∑ d²) / 128`, and the normalised entry `d q · (σ² + ε)^(−1/2) · γ + β` (`lnAt`).
  The layer's output entry is the sum of two 128-term products — the normalised row against the first half of a
  weight row, the aggregated-and-scaled row against the second half — plus a bias (`linAt`). A sum over 256
  terms is the sum over its two halves (`sum_256_split`): that is how one product against the concatenated row
  becomes the two products.
-/
import Idealize.ShloMosaic.PureOps.Ideal
import Idealize.ShloMosaic.Lib.ValueIdx

noncomputable section

open scoped BigOperators

namespace Cert.Spec

open Idealize.ShloMosaic

/-- The divisor 128 and the variance offset ε as the two programs spell them (the same 32-bit words on both sides). -/
abbrev c128 : EReal := Ideal.ofBits .f32 0x43000000#32
abbrev ceps : EReal := Ideal.ofBits .f32 0x3727C5AC#32

/-- The mean of a row. -/
def rowMean (row : Fin 128 → EReal) : EReal := Ideal.div (∑ k, row k) c128

/-- An entry's deviation from its row's mean. -/
def rowDev (row : Fin 128 → EReal) (q : Fin 128) : EReal := row q - rowMean row

/-- The variance of a row: the mean of the squared deviations. -/
def rowVar (row : Fin 128 → EReal) : EReal := Ideal.div (∑ k, rowDev row k * rowDev row k) c128

/-- LayerNorm of a row at entry `q`, with scale `g` and shift `b` of that entry. -/
def lnAt (row : Fin 128 → EReal) (g b : EReal) (q : Fin 128) : EReal :=
  rowDev row q * Ideal.rsqrt (rowVar row + ceps) * g + b

/-- The layer's output entry: the normalised row `hn` against `w1`, the aggregated row `ag` scaled by `s` against `w2`,
    plus the bias `b`. -/
def linAt (hn ag : Fin 128 → EReal) (s : EReal) (w1 w2 : Fin 128 → EReal) (b : EReal) : EReal :=
  (∑ k, hn k * w1 k + ∑ k, (ag k * s) * w2 k) + b

/-- A sum of 256 terms is the sum of its first 128 and of its last 128. -/
theorem sum_256_split (f : Fin 256 → EReal) :
    ∑ k : Fin 256, f k = ∑ k : Fin 128, f ⟨k.val, by omega⟩ + ∑ k : Fin 128, f ⟨128 + k.val, by omega⟩ := by
  have h := Fin.sum_univ_add (M := EReal) (a := 128) (b := 128) f
  rw [show (∑ k : Fin 256, f k) = ∑ k : Fin (128 + 128), f k from rfl, h]
  rfl

end Cert.Spec

end
-- ==== Proof.KBody0.lean ====
/-
  The first kernel's body, entry by entry, on the extended reals.

  The body loads a block `x` of 1000 feature rows, the scale row `γ`, the shift row `β` and a column `s` of 1000 per-row
  factors. Its first store is LayerNorm of each row: entry (p, q) is `Spec.lnAt` of row `p` of `x` with `γ q` and `β q`.
  Its second store multiplies every entry of row `p` of that by `s p`.
-/
import proofs.«419021_j10359461118094_1_alg».proof.Proof.Gen.KernelIdeal.Skeleton
import proofs.«419021_j10359461118094_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-! ## The operations that are not entry-wise, at this kernel's shapes -/

/-- The sum over axis 1 of a [1000,128] block, read at row `p`, is the sum of that row's 128 entries: the source index
    over `p` with `k` inserted on the summed axis is `(p, k)`. The two side conditions are typed as the payload spells them. -/
private theorem rowSum_apply (v : FVec Ideal S1000x128 .f32) (h : S1000x128.Reduces [1] S1000)
    (hφ : FTy.f32 = FTy.f32 ∨ FTy.f32 = FTy.bf16)
    (hacc : (0x00000000#32 : BitVec 32) = 0x00000000#32) (p : Fin 1000) :
    multiReduction (F := Ideal) .add [1] S1000 v 0x00000000#32 h hφ hacc (ix1 p) = ∑ k : Fin 128, v (ix2 p k) := by
  refine (Ideal.multiReduction_add_single v 0x00000000#32 h hφ hacc (ix1 p)).trans ?_
  show ∑ k : Fin 128, v (h.lift (ix1 p) k) = ∑ k : Fin 128, v (ix2 p k)
  refine Finset.sum_congr rfl fun k _ => congrArg v ?_
  funext c
  match c with
  | ⟨0, _⟩ => exact Fin.ext rfl
  | ⟨1, _⟩ => exact Fin.ext rfl

/-- A [1000] vector cast to [1000,1] reads, at `(p, z)`, the operand at `p`: both have row-major position `p`. -/
private theorem keepdims_apply {α : Type} (u : S1000.Idx → α) (h : S1000.ShapeCasts S1000x1) (p : Fin 1000) (z : Fin 1) :
    shapeCast S1000x1 u h (ix2 p z) = u (ix1 p) :=
  shapeCast_apply u h _ _ (by
    have hz : z.val = 0 := by omega
    rw [Shape.rowMajor_val_one, Shape.rowMajor_val_two]
    show p.val = p.val * 1 + z.val
    rw [hz, Nat.mul_one, Nat.add_zero])

/-- A [1000,1] column broadcast to [1000,128] reads, at `(p, q)`, the column's entry of row `p`. -/
private theorem bcastCol_apply {α : Type} (u : S1000x1.Idx → α) (h : S1000x1.Broadcasts S1000x128) (p : Fin 1000) (q : Fin 128) :
    broadcastTo S1000x128 u h (ix2 p q) = u (ix2 p (0 : Fin 1)) := by
  refine broadcastTo_apply u h (ix2 p q) (ix2 p (0 : Fin 1)) fun ax => ?_
  match ax with
  | ⟨0, _⟩ =>
    show p.val = if (1000 : ℕ) = 1 then 0 else p.val
    rw [if_neg (by decide)]
  | ⟨1, _⟩ => rfl

/-- A reciprocal square root at an index is the reciprocal square root of the element. -/
private theorem rsqrt_apply {s : Shape} {φ : FTy} (a : FVec Ideal s φ) (i : s.Idx) : rsqrt a i = Ideal.rsqrt (a i) := rfl

/-! ## The two stores -/

/-- The LayerNorm store at entry (p, q): `lnAt` of row `p` of the loaded block, with entry `q` of the scale and shift rows. -/
theorem ln_payload_apply (v0 : Vec Ideal S1000x128 .f32) (v17 v21 : Vec Ideal S1x128 .f32) (p : Fin 1000) (q : Fin 128) :
    k0_pay1 (F := Ideal) v0 v17 v21 (ix2 p q)
      = lnAt (fun k => v0 (ix2 p k)) (v17 (ix2 (0 : Fin 1) q)) (v21 (ix2 (0 : Fin 1) q)) q := by
  -- Entry (p, q) of the payload, operation by operation: the entry-wise ones read their operands at (p, q); the two
  -- column broadcasts read column entry (p, 0), which the cast from [1000] reads at p, where each reduction is a row sum.
  unfold k0_pay1
  simp only [addf_apply, mulf_apply, subf_apply, divf_apply, rsqrt_apply, broadcast_apply, bcastCol_apply, keepdims_apply,
    broadcastTo_1b_ab_apply, shapeCast_self]
  -- the mean's row sum and the variance's row sum
  rw [rowSum_apply, rowSum_apply]
  -- under the variance's sum: each term is the squared deviation of entry (p, k), the mean read again at (p, 0)
  simp only [mulf_apply, subf_apply, divf_apply, broadcast_apply, bcastCol_apply, keepdims_apply]
  rw [rowSum_apply]
  -- what is left is `lnAt` of row p with its mean, deviations and variance written out
  rfl

/-- The scaled store at entry (p, q): the LayerNorm entry times row `p`'s factor. -/
theorem msg_payload_apply (v0 : Vec Ideal S1000x128 .f32) (v17 v21 : Vec Ideal S1x128 .f32) (v26 : Vec Ideal S1000x1 .f32)
    (p : Fin 1000) (q : Fin 128) :
    k0_pay2 (F := Ideal) v0 v17 v21 v26 (ix2 p q)
      = k0_pay1 (F := Ideal) v0 v17 v21 (ix2 p q) * v26 (ix2 p (0 : Fin 1)) := by
  -- the factor column is cast to its own shape (the identity) and broadcast along the row: entry (p, q) reads (p, 0)
  unfold k0_pay2
  rw [mulf_apply, bcastCol_apply, shapeCast_self]

end Cert.KernelIdeal.Body

end
-- ==== Proof.KRegion0.lean ====
/-
  The first pallas_call's two result arrays as whole-array functions of what the call finds in its operands.

  The call walks 50 blocks of 1000 rows. Point `t` reads rows `1000 t … 1000 t + 999` of the features and of the per-row
  factor column, the whole scale and shift rows, and writes back the same rows of both results; every row of the
  results lies in exactly one block, so the first result is LayerNorm of every feature row and the second is that times
  the row's factor.
-/
import proofs.«419021_j10359461118094_1_alg».proof.Proof.Gen.KernelIdeal.Frame
import proofs.«419021_j10359461118094_1_alg».proof.Proof.KBody0
import Idealize.ShloMosaic.Lib.Pipeline.Value

set_option maxRecDepth 16384

noncomputable section

open scoped BigOperators

namespace Cert.KernelIdeal.Region

open Cert.KernelIdeal Cert.KernelIdeal.Gen Cert.KernelIdeal.Body Idealize.ShloMosaic Idealize.ShloMosaic.TcCoe Idealize.ShloMosaic.ValueIdx
open Idealize.SL.Sem Cert.Spec

variable (V : (c : Dev nD) → (b : Ref sig .tc) → Buf (Elt Ideal) ((c : Thread nD τ).loc b))

private theorem zero_offsets : (![0, 0] : Fin 2 → Nat) = fun _ => 0 := funext fun a => by fin_cases a <;> rfl

private theorem block_index_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = t.val ∧ win0_3.index t (1 : Fin 2) = 0
  ∧ win0_4.index t (0 : Fin 2) = t.val ∧ win0_4.index t (1 : Fin 2) = 0
  ∧ win0_5.index t (0 : Fin 2) = t.val ∧ win0_5.index t (1 : Fin 2) = 0 :=
  (by decide +kernel : ∀ t : Fin grid0.N, _)

/-- Row `p` of block `t` is row `1000 t + p` of the array. -/
private def rowOf (t : Fin cfg0.N) (p : Fin 1000) : Fin 50000 :=
  ⟨t.val * 1000 + p.val, by
    have ht : t.val < 50 := lt_of_lt_of_eq t.isLt N_0
    have hp : p.val < 1000 := p.isLt
    omega⟩

/-- Entry (p, k) of the feature block at point `t` is entry (1000 t + p, k) of the feature array. -/
private theorem feature_block_index (t : Fin cfg0.N) (p : Fin 1000) (k : Fin 128) :
    ((cfg0.win 0).blk t).view.emb (ix2 p k) = (ix2 (rowOf t p) k : S50000x128.Idx) := by
  obtain ⟨e0, e1, -⟩ := block_index_facts t
  funext a; apply Fin.ext
  match a with
  | ⟨0, _⟩ => show win0_0.index t (0 : Fin 2) * 1000 + 1 * p.val = t.val * 1000 + p.val; omega
  | ⟨1, _⟩ => show win0_0.index t (1 : Fin 2) * 128 + 1 * k.val = k.val; omega

/-- The scale row is read whole at every point. -/
private theorem scale_block_index (t : Fin cfg0.N) (q : Fin 128) :
    ((cfg0.win 1).blk t).view.emb (ix2 (0 : Fin 1) q) = (ix2 (0 : Fin 1) q : S1x128.Idx) := by
  obtain ⟨-, -, e0, e1, -⟩ := block_index_facts t
  funext a; apply Fin.ext
  match a with
  | ⟨0, _⟩ => show win0_1.index t (0 : Fin 2) * 1 + 1 * 0 = 0; omega
  | ⟨1, _⟩ => show win0_1.index t (1 : Fin 2) * 128 + 1 * q.val = q.val; omega

/-- The shift row is read whole at every point. -/
private theorem shift_block_index (t : Fin cfg0.N) (q : Fin 128) :
    ((cfg0.win 2).blk t).view.emb (ix2 (0 : Fin 1) q) = (ix2 (0 : Fin 1) q : S1x128.Idx) := by
  obtain ⟨-, -, -, -, e0, e1, -⟩ := block_index_facts t
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- Entry `p` of the factor block at point `t` is entry `1000 t + p` of the factor column. -/
private theorem factor_block_index (t : Fin cfg0.N) (p : Fin 1000) :
    ((cfg0.win 3).blk t).view.emb (ix2 p (0 : Fin 1)) = (ix2 (rowOf t p) (0 : Fin 1) : S50000x1.Idx) := by
  obtain ⟨-, -, -, -, -, -, e0, e1, -⟩ := block_index_facts t
  funext a; apply Fin.ext
  match a with
  | ⟨0, _⟩ => show win0_3.index t (0 : Fin 2) * 1000 + 1 * p.val = t.val * 1000 + p.val; omega
  | ⟨1, _⟩ => show win0_3.index t (1 : Fin 2) * 1 + 1 * 0 = 0; omega

/-- Entry (p, q) of the first result's block at point `t` is entry (1000 t + p, q) of the first result. -/
private theorem hn_block_index (t : Fin cfg0.N) (p : Fin 1000) (q : Fin 128) :
    ((cfg0.win 4).blk t).view.emb (ix2 p q) = (ix2 (rowOf t p) q : S50000x128.Idx) := by
  obtain ⟨-, -, -, -, -, -, -, -, e0, e1, -⟩ := block_index_facts t
  funext a; apply Fin.ext
  match a with
  | ⟨0, _⟩ => show win0_4.index t (0 : Fin 2) * 1000 + 1 * p.val = t.val * 1000 + p.val; omega
  | ⟨1, _⟩ => show win0_4.index t (1 : Fin 2) * 128 + 1 * q.val = q.val; omega

/-- Entry (p, q) of the second result's block at point `t` is entry (1000 t + p, q) of the second result. -/
private theorem msg_block_index (t : Fin cfg0.N) (p : Fin 1000) (q : Fin 128) :
    ((cfg0.win 5).blk t).view.emb (ix2 p q) = (ix2 (rowOf t p) q : S50000x128.Idx) := by
  obtain ⟨-, -, -, -, -, -, -, -, -, -, e0, e1⟩ := block_index_facts t
  funext a; apply Fin.ext
  match a with
  | ⟨0, _⟩ => show win0_5.index t (0 : Fin 2) * 1000 + 1 * p.val = t.val * 1000 + p.val; omega
  | ⟨1, _⟩ => show win0_5.index t (1 : Fin 2) * 128 + 1 * q.val = q.val; omega

/-- What point `t` writes back to the first result is block `t` of the normalised array. -/
private theorem hn_flushed (c : Dev nD) (t : Fin cfg0.N) :
    (dat0 (F := Ideal) V c).flushed 4 t = ((cfg0.win 4).blk t).view.read (Elt Ideal)
      (fun i : S50000x128.Idx => lnAt (fun k => V c main_arg0 (ix2 (i 0) k)) (V c main_v19 (ix2 (0 : Fin 1) (i 1)))
          (V c main_v20 (ix2 (0 : Fin 1) (i 1))) (i 1)) := by
  show (cfg0.win 4).cut (grid0.coords t) ((dat0 (F := Ideal) V c).after 4 t) = _
  rw [after0_4]
  unfold out0_4
  rw [View.canon_unit_zero zero_offsets]
  simp only [View.ld_unit_zero (S := S1000x128) zero_offsets, View.ld_unit_zero (S := S1x128) zero_offsets]
  funext y
  obtain ⟨p, q, rfl⟩ : ∃ (p : Fin 1000) (q : Fin 128), y = ix2 p q := ⟨y 0, y 1, eq_ix2 y⟩
  refine (ln_payload_apply (iblk0 V c 0 t) (iblk0 V c 1 t) (iblk0 V c 2 t) p q).trans ?_
  show lnAt (fun k => V c main_arg0 (((cfg0.win 0).blk t).view.emb (ix2 p k)))
        (V c main_v19 (((cfg0.win 1).blk t).view.emb (ix2 (0 : Fin 1) q)))
        (V c main_v20 (((cfg0.win 2).blk t).view.emb (ix2 (0 : Fin 1) q))) q
      = (fun i : S50000x128.Idx => lnAt (fun k => V c main_arg0 (ix2 (i 0) k)) (V c main_v19 (ix2 (0 : Fin 1) (i 1)))
          (V c main_v20 (ix2 (0 : Fin 1) (i 1))) (i 1)) (((cfg0.win 4).blk t).view.emb (ix2 p q))
  rw [hn_block_index t p q, scale_block_index t q, shift_block_index t q]
  simp only [feature_block_index t p]

/-- What point `t` writes back to the second result is block `t` of the scaled array. -/
private theorem msg_flushed (c : Dev nD) (t : Fin cfg0.N) :
    (dat0 (F := Ideal) V c).flushed 5 t = ((cfg0.win 5).blk t).view.read (Elt Ideal)
      (fun i : S50000x128.Idx => lnAt (fun k => V c main_arg0 (ix2 (i 0) k)) (V c main_v19 (ix2 (0 : Fin 1) (i 1)))
          (V c main_v20 (ix2 (0 : Fin 1) (i 1))) (i 1) * V c main_v16 (ix2 (i 0) (0 : Fin 1))) := by
  show (cfg0.win 5).cut (grid0.coords t) ((dat0 (F := Ideal) V c).after 5 t) = _
  rw [after0_5]
  unfold out0_5
  rw [View.canon_unit_zero zero_offsets]
  simp only [View.ld_unit_zero (S := S1000x128) zero_offsets, View.ld_unit_zero (S := S1x128) zero_offsets,
    View.ld_unit_zero (S := S1000x1) zero_offsets]
  funext y
  obtain ⟨p, q, rfl⟩ : ∃ (p : Fin 1000) (q : Fin 128), y = ix2 p q := ⟨y 0, y 1, eq_ix2 y⟩
  refine (msg_payload_apply (iblk0 V c 0 t) (iblk0 V c 1 t) (iblk0 V c 2 t) (iblk0 V c 3 t) p q).trans ?_
  refine (congrArg (· * iblk0 V c 3 t (ix2 p (0 : Fin 1)))
    (ln_payload_apply (iblk0 V c 0 t) (iblk0 V c 1 t) (iblk0 V c 2 t) p q)).trans ?_
  show lnAt (fun k => V c main_arg0 (((cfg0.win 0).blk t).view.emb (ix2 p k)))
        (V c main_v19 (((cfg0.win 1).blk t).view.emb (ix2 (0 : Fin 1) q)))
        (V c main_v20 (((cfg0.win 2).blk t).view.emb (ix2 (0 : Fin 1) q))) q
        * V c main_v16 (((cfg0.win 3).blk t).view.emb (ix2 p (0 : Fin 1)))
      = (fun i : S50000x128.Idx => lnAt (fun k => V c main_arg0 (ix2 (i 0) k)) (V c main_v19 (ix2 (0 : Fin 1) (i 1)))
          (V c main_v20 (ix2 (0 : Fin 1) (i 1))) (i 1) * V c main_v16 (ix2 (i 0) (0 : Fin 1)))
          (((cfg0.win 5).blk t).view.emb (ix2 p q))
  rw [msg_block_index t p q, scale_block_index t q, shift_block_index t q, factor_block_index t p]
  simp only [feature_block_index t p]

/-- An index of the first result is in point `t`'s block iff each coordinate is in the block's range on its axis. -/
private theorem mem_hn_block (t : Fin cfg0.N) (i : S50000x128.Idx) :
    i ∈ ((cfg0.win 4).blk t).view.set ↔ ∀ a : Fin 2, win0_4.index t a * S1000x128.size a ≤ (i a).val
      ∧ (i a).val < win0_4.index t a * S1000x128.size a + S1000x128.size a := by
  show i ∈ ((View.whole main_v21_0).slice (win0_4.rect t)).set ↔ _
  rw [View.set_slice_whole, Rect.mem_set_unit]
  exact Iff.rfl

/-- An index of the second result is in point `t`'s block iff each coordinate is in the block's range on its axis. -/
private theorem mem_msg_block (t : Fin cfg0.N) (i : S50000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v21_1).slice (win0_5.rect t)).set ↔ _
  rw [View.set_slice_whole, Rect.mem_set_unit]
  exact Iff.rfl

/-- The block holding row `r`: point `r / 1000`. -/
private def pointOf (i : S50000x128.Idx) : Fin cfg0.N :=
  ⟨(i 0).val / 1000, by
    have hi0 : (i 0).val < 50000 := (i 0).isLt
    show (i 0).val / 1000 < cfg0.N
    rw [show cfg0.N = 50 from N_0]
    omega⟩

/-- Every entry of the first result lies in the block of the point `row / 1000`, which is written back. -/
private theorem hn_cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  refine ⟨pointOf i, flush0_4 (pointOf i), ?_⟩
  rw [mem_hn_block]
  obtain ⟨-, -, -, -, -, -, -, -, e0, e1, -⟩ := block_index_facts (pointOf i)
  have ht : (pointOf i).val = (i 0).val / 1000 := rfl
  intro a
  match a with
  | ⟨0, _⟩ =>
    show win0_4.index (pointOf i) (0 : Fin 2) * 1000 ≤ (i 0).val
      ∧ (i 0).val < win0_4.index (pointOf i) (0 : Fin 2) * 1000 + 1000
    omega
  | ⟨1, _⟩ =>
    show win0_4.index (pointOf i) (1 : Fin 2) * 128 ≤ (i 1).val
      ∧ (i 1).val < win0_4.index (pointOf i) (1 : Fin 2) * 128 + 128
    omega

/-- Every entry of the second result lies in the block of the point `row / 1000`, which is written back. -/
private theorem msg_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  refine ⟨pointOf i, flush0_5 (pointOf i), ?_⟩
  rw [mem_msg_block]
  obtain ⟨-, -, -, -, -, -, -, -, -, -, e0, e1⟩ := block_index_facts (pointOf i)
  have ht : (pointOf i).val = (i 0).val / 1000 := rfl
  intro a
  match a with
  | ⟨0, _⟩ =>
    show win0_5.index (pointOf i) (0 : Fin 2) * 1000 ≤ (i 0).val
      ∧ (i 0).val < win0_5.index (pointOf i) (0 : Fin 2) * 1000 + 1000
    omega
  | ⟨1, _⟩ =>
    show win0_5.index (pointOf i) (1 : Fin 2) * 128 ≤ (i 1).val
      ∧ (i 1).val < win0_5.index (pointOf i) (1 : Fin 2) * 128 + 128
    omega

/-- The normalised array: entry (r, q) is LayerNorm of feature row `r` with entry `q` of the scale and shift rows. -/
theorem region0_hn (c : Dev nD) :
    (dat0 (F := Ideal) V c).arrAt 4 cfg0.N
      = (fun i : S50000x128.Idx => lnAt (fun k => V c main_arg0 (ix2 (i 0) k)) (V c main_v19 (ix2 (0 : Fin 1) (i 1)))
          (V c main_v20 (ix2 (0 : Fin 1) (i 1))) (i 1)) :=
  (dat0 (F := Ideal) V c).arrAt_eq_of_cover 4 _ (fun t _ => hn_flushed V c t) hn_cover

/-- The scaled array: the normalised entry (r, q) times row `r`'s factor. -/
theorem region0_msg (c : Dev nD) :
    (dat0 (F := Ideal) V c).arrAt 5 cfg0.N
      = (fun i : S50000x128.Idx => lnAt (fun k => V c main_arg0 (ix2 (i 0) k)) (V c main_v19 (ix2 (0 : Fin 1) (i 1)))
          (V c main_v20 (ix2 (0 : Fin 1) (i 1))) (i 1) * V c main_v16 (ix2 (i 0) (0 : Fin 1))) :=
  (dat0 (F := Ideal) V c).arrAt_eq_of_cover 5 _ (fun t _ => msg_flushed V c t) msg_cover

end Cert.KernelIdeal.Region

end
-- ==== Proof.LibMeanAggregate.lean ====
/-
  One mean-aggregate layer of a graph network at the ideal values: for a diffusion matrix `D` [M × S], gathered source
  rows `src` [S × 128], gathered destination rows `dst` [M × 128] and weights `w` [256 × 128],

      layer D src dst w (r, c) = max (∑ j < 256, cat (r, j) · w (j, c)) 0,
      cat (r, j) = ∑ k < S, D (r, k) · src (k, j)   for j < 128,      cat (r, j) = dst (r, j − 128)   for j ≥ 128.

  Both spellings of it are read here at an index, for any sizes M and S: the host's (two `dot_general`s around a
  `concatenate`, then a maximum against a broadcast zero) and a TensorCore body's (two `tpu.matmul`s into zero
  accumulators around a `tpu.concatenate`, format changes and shape casts that are the identity at the ideal values,
  then `arith.maximumf` against a splat zero). Row `r` of the layer reads only row `r` of `D` and of `dst`
  (`layer_row_congr`), so a block of rows of the result is the layer of the blocks of rows.
-/
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain dot at (r, c), re-indexed by the one contracted coordinate. -/
private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- A plain [M × K] by [K × N] `tpu.matmul` into the zero accumulator, at the ideal values, read at (r, c). -/
theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

/-- The host's plain [M × K] by [K × N] `dot_general`, at the ideal values, read at (r, c). -/
theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

/-- Two pieces [M × A] and [M × B] joined along the columns into [M × C], C = A + B, read at (r, j). -/
theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

/-- The layer at row `r`, column `c`. -/
def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

/-- The layer as an array. -/
def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

/-- Row `r` of the layer reads only row `r` of `D` and of `dst`. -/
theorem layer_row_congr (M M' S : Nat) (D : (⟨2, ![M, S]⟩ : Shape).Idx → EReal) (D' : (⟨2, ![M', S]⟩ : Shape).Idx → EReal)
    (src : (⟨2, ![S, 128]⟩ : Shape).Idx → EReal) (dst : (⟨2, ![M, 128]⟩ : Shape).Idx → EReal)
    (dst' : (⟨2, ![M', 128]⟩ : Shape).Idx → EReal) (w : (⟨2, ![256, 128]⟩ : Shape).Idx → EReal) (r : Fin M) (r' : Fin M') (c : Fin 128)
    (hD : ∀ k : Fin S, D (ix2 r k) = D' (ix2 r' k)) (hdst : ∀ q : Fin 128, dst (ix2 r q) = dst' (ix2 r' q)) :
    layer M S D src dst w (ix2 r c) = layer M' S D' src dst' w (ix2 r' c) := by
  show layerAt M S D src dst w r c = layerAt M' S D' src dst' w r' c
  unfold layerAt
  congr 1
  refine Finset.sum_congr rfl fun j _ => ?_
  congr 1
  by_cases hj : j.val < 128
  · rw [dif_pos hj, dif_pos hj]
    exact Finset.sum_congr rfl fun k _ => by rw [hD k]
  · rw [dif_neg hj, dif_neg hj]
    exact hdst _

/-- The host's spelling is the layer. -/
theorem host_layer_eq (M S : Nat) (D : FVec Ideal ⟨2, ![M, S]⟩ .f32) (src : FVec Ideal ⟨2, ![S, 128]⟩ .f32)
    (dst : FVec Ideal ⟨2, ![M, 128]⟩ .f32) (w : FVec Ideal ⟨2, ![256, 128]⟩ .f32)
    (hcat : Shape.Concatenates (([⟨⟨2, ![M, 128]⟩, Host.dotGeneral (DotDims.plain M S 128) none D src⟩, ⟨⟨2, ![M, 128]⟩, dst⟩] :
      List ((s : Shape) × (s.Idx → EReal))).map (·.1)) ⟨2, ![M, 256]⟩ 1)
    (hb : (⟨0, ![]⟩ : Shape).BroadcastsInDim ⟨2, ![M, 128]⟩ (![] : Fin 0 → Fin 2)) :
    maximumf (Host.dotGeneral (DotDims.plain M 256 128) none
        (concatenate ⟨2, ![M, 256]⟩ 1 [⟨⟨2, ![M, 128]⟩, Host.dotGeneral (DotDims.plain M S 128) none D src⟩, ⟨⟨2, ![M, 128]⟩, dst⟩] hcat) w)
      (broadcastInDim ⟨2, ![M, 128]⟩ ![] hb (constant (F := Ideal) ⟨0, ![]⟩ .f32 0x00000000#32))
      = layer M S D src dst w := by
  funext i
  obtain ⟨r, c, rfl⟩ : ∃ (r : Fin M) (c : Fin 128), i = ix2 r c := ⟨i 0, i 1, eq_ix2 i⟩
  rw [maximumf_apply, plain_dotGeneral_apply, layer_apply]
  unfold layerAt
  congr 1
  · refine Finset.sum_congr rfl fun j _ => ?_
    congr 1
    rw [concat_cols_apply M 128 128 256 rfl]
    by_cases hj : j.val < 128
    · rw [dif_pos hj, dif_pos hj, plain_dotGeneral_apply]
    · rw [dif_neg hj, dif_neg hj]
  · rw [broadcastInDim_apply ![] hb _ (ix2 r c) ix0 (fun a => a.elim0), constant_apply, Ideal.ofBits_zero_f32]

/-- A TensorCore body's spelling is the layer (the bf16 narrowing and the two shape casts to the same shape are the identity
    at the ideal values). -/
theorem kernel_layer_eq (M S : Nat) (x0 : FVec Ideal ⟨2, ![M, S]⟩ .f32) (x1 : FVec Ideal ⟨2, ![S, 128]⟩ .bf16)
    (x2 : FVec Ideal ⟨2, ![M, 128]⟩ .f32) (x3 : FVec Ideal ⟨2, ![256, 128]⟩ .f32) (hlt : FTy.bf16.bits < FTy.f32.bits)
    (hc1 : (⟨2, ![S, 128]⟩ : Shape).ShapeCasts ⟨2, ![S, 128]⟩) (hc2 : (⟨2, ![M, 128]⟩ : Shape).ShapeCasts ⟨2, ![M, 128]⟩)
    (hcat : Shape.Concatenates (([⟨⟨2, ![M, 128]⟩, matmul (DotDims.plain M S 128) none (truncf .bf16 x0 hlt) (shapeCast ⟨2, ![S, 128]⟩ x1 hc1)
        (constant ⟨2, ![M, 128]⟩ .f32 0x00000000#32)⟩, ⟨⟨2, ![M, 128]⟩, shapeCast ⟨2, ![M, 128]⟩ x2 hc2⟩] :
      List ((s : Shape) × (s.Idx → EReal))).map (·.1)) ⟨2, ![M, 256]⟩ 1) :
    maximumf (matmul (DotDims.plain M 256 128) (some .fp32)
        (concatenate ⟨2, ![M, 256]⟩ 1 [⟨⟨2, ![M, 128]⟩, matmul (DotDims.plain M S 128) none (truncf .bf16 x0 hlt) (shapeCast ⟨2, ![S, 128]⟩ x1 hc1)
          (constant ⟨2, ![M, 128]⟩ .f32 0x00000000#32)⟩, ⟨⟨2, ![M, 128]⟩, shapeCast ⟨2, ![M, 128]⟩ x2 hc2⟩] hcat)
        x3 (constant ⟨2, ![M, 128]⟩ .f32 0x00000000#32))
      (broadcast ⟨2, ![M, 128]⟩ (Scalar.ofBits (F := Ideal) .f32 0x00000000#32))
      = layer M S x0 x1 x2 x3 := by
  funext i
  obtain ⟨r, c, rfl⟩ : ∃ (r : Fin M) (c : Fin 128), i = ix2 r c := ⟨i 0, i 1, eq_ix2 i⟩
  rw [maximumf_apply, plain_matmul_zero_apply, layer_apply, broadcast_apply]
  unfold layerAt
  congr 1
  · refine Finset.sum_congr rfl fun j _ => ?_
    congr 1
    rw [concat_cols_apply M 128 128 256 rfl]
    by_cases hj : j.val < 128
    · rw [dif_pos hj, dif_pos hj, plain_matmul_zero_apply]
      refine Finset.sum_congr rfl fun k _ => ?_
      rw [truncf_apply, shapeCast_self]
    · rw [dif_neg hj, dif_neg hj, shapeCast_self]
  · exact Ideal.ofBits_zero_f32

end Idealize.ShloMosaic.MeanAggregate

end
-- ==== Proof.KBody1.lean ====
/-
  The second kernel's body, entry by entry, on the extended reals.

  The body loads a block `hn` of 1000 normalised rows, the matching block `ag` of aggregated rows, a column `s` of 1000
  per-row factors, two 128 × 128 weight matrices and a bias row. It stores, at entry (p, c),
  `∑ₖ hn(p, k) · w1(k, c) + ∑ₖ (ag(p, k) · s(p)) · w2(k, c) + b(c)`: the narrowing of the operands to a 16-bit format is
  the identity on the extended reals and each product into a zero accumulator is a plain sum.
-/
import proofs.«419021_j10359461118094_1_alg».proof.Proof.Gen.KernelIdeal.Skeleton
import proofs.«419021_j10359461118094_1_alg».proof.Proof.Spec
import proofs.«419021_j10359461118094_1_alg».proof.Proof.LibMeanAggregate
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-- The kernel's contraction record is the plain [1000 × 128] by [128 × 128] one. -/
private theorem dot_eq_plain : dot_S1000x128_S128x128_S1000x128_1_0_0_1_n_n = DotDims.plain 1000 128 128 := rfl

/-- A column of 1000 entries broadcast over 128 columns reads, at (p, c), the column's entry p. -/
private theorem bcast_col_apply {α : Type} (u : S1000x1.Idx → α) (h : S1000x1.Broadcasts S1000x128) (p : Fin 1000) (c : Fin 128) :
    broadcastTo S1000x128 u h (ix2 p c) = u (ix2 p (0 : Fin 1)) := by
  refine broadcastTo_apply u h (ix2 p c) (ix2 p (0 : Fin 1)) fun ax => ?_
  match ax with
  | ⟨0, _⟩ =>
    show p.val = if (1000 : Nat) = 1 then 0 else p.val
    rw [if_neg (by decide)]
  | ⟨1, _⟩ => rfl

/-- The kernel's [1000 × 128] by [128 × 128] product into the zero accumulator, read at (p, c), is the plain sum. -/
private theorem dot_zero_apply {φ₁ φ₂ : FTy} (lhs : FVec Ideal S1000x128 φ₁) (rhs : FVec Ideal S128x128 φ₂) (p : Fin 1000) (c : Fin 128) :
    matmul dot_S1000x128_S128x128_S1000x128_1_0_0_1_n_n none lhs rhs (constant S1000x128 .f32 0x00000000#32) (ix2 p c)
      = ∑ k : Fin 128, lhs (ix2 p k) * rhs (ix2 k c) := by
  rw [dot_eq_plain]
  exact MeanAggregate.plain_matmul_zero_apply 1000 128 128 none lhs rhs p c

/-- The stored entry (p, c) of the final linear map. -/
theorem out_payload_apply (v0 v2 : Vec Ideal S1000x128 .f32) (v4 : Vec Ideal S1000x1 .f32) (v10 v13 : Vec Ideal S128x128 .f32)
    (v19 : Vec Ideal S1x128 .f32) (p : Fin 1000) (c : Fin 128) :
    k1_pay1 (F := Ideal) v0 v2 v4 v10 v13 v19 (ix2 p c)
      = linAt (fun k => v0 (ix2 p k)) (fun k => v2 (ix2 p k)) (v4 (ix2 p (0 : Fin 1)))
          (fun k => v10 (ix2 k c)) (fun k => v13 (ix2 k c)) (v19 (ix2 (0 : Fin 1) c)) := by
  unfold k1_pay1 linAt
  rw [addf_apply, addf_apply, dot_zero_apply, dot_zero_apply, broadcastTo_1b_ab_apply, shapeCast_self v0, shapeCast_self v2,
    shapeCast_self v4, shapeCast_self v10, shapeCast_self v13, shapeCast_self v19]
  congr 1
  congr 1
  refine Finset.sum_congr rfl fun k _ => ?_
  rw [truncf_apply, truncf_apply, mulf_apply, bcast_col_apply]

end Cert.KernelIdeal.Body

end
-- ==== Proof.KRegion1.lean ====
/-
  The second pallas_call's result array as a whole-array function of what the call finds in its operands.

  The call walks 50 blocks of 1000 rows. Point `t` reads rows `1000 t … 1000 t + 999` of the normalised array, of the
  aggregated array and of the per-row factor column, the two whole weight matrices and the bias row, and writes back the
  same rows of the result; every row lies in exactly one block, so the result at (r, c) is the final linear map
  (`Spec.linAt`) of row `r` of the operands and column `c` of the weights.
-/
import proofs.«419021_j10359461118094_1_alg».proof.Proof.Gen.KernelIdeal.Frame
import proofs.«419021_j10359461118094_1_alg».proof.Proof.KBody1
import Idealize.ShloMosaic.Lib.Pipeline.Value

set_option maxRecDepth 16384

noncomputable section

open scoped BigOperators

namespace Cert.KernelIdeal.Region

open Cert.KernelIdeal Cert.KernelIdeal.Gen Cert.KernelIdeal.Body Idealize.ShloMosaic Idealize.ShloMosaic.TcCoe Idealize.ShloMosaic.ValueIdx
open Idealize.SL.Sem Cert.Spec

variable (V : (c : Dev nD) → (b : Ref sig .tc) → Buf (Elt Ideal) ((c : Thread nD τ).loc b))

/-- The zero offset of a whole-block load or store, as a constant function. -/
private theorem zero_offset : (![0, 0] : Fin 2 → Nat) = fun _ => 0 :=
  funext fun a => by match a with | ⟨0, _⟩ => rfl | ⟨1, _⟩ => rfl

/-- The block indices of the seven windows at point `t`: the row-block windows sit at block (t, 0), the weights and
    the bias at block (0, 0). -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The result array as one function of the operands. -/
private abbrev outArr (c : Dev nD) : S50000x128.Idx → Elt Ideal .f32 :=
  fun i => linAt (fun k => V c main_v21_0 (ix2 (i 0) k)) (fun k => V c main_v25 (ix2 (i 0) k))
    (V c main_v18 (ix2 (i 0) (0 : Fin 1))) (fun k => V c main_v27 (ix2 k (i 1))) (fun k => V c main_v29 (ix2 k (i 1)))
    (V c main_v30 (ix2 (0 : Fin 1) (i 1)))

/-- There are 50 points. -/
private theorem point_lt (t : Fin cfg1.N) : t.val < 50 := by
  have h : t.val < grid1.N := t.isLt
  rw [N_1] at h
  exact h

/-- Row `p` of block `t` is row `1000 t + p` of the array. -/
private def rowOf (t : Fin cfg1.N) (p : Fin 1000) : Fin 50000 :=
  ⟨1000 * t.val + p.val, by have := point_lt t; have := p.isLt; omega⟩

/-- The final linear map takes equal operands to equal values. -/
private theorem linAt_congr {hn hn' ag ag' w1 w1' w2 w2' : Fin 128 → EReal} {s s' b b' : EReal}
    (h1 : hn = hn') (h2 : ag = ag') (h3 : s = s') (h4 : w1 = w1') (h5 : w2 = w2') (h6 : b = b') :
    linAt hn ag s w1 w2 b = linAt hn' ag' s' w1' w2' b' := by
  subst h1 h2 h3 h4 h5 h6; rfl

/-- Block `t` of the normalised array, at (p, k), is the array at (1000 t + p, k). -/
private theorem blk0_apply (c : Dev nD) (t : Fin cfg1.N) (p : Fin 1000) (k : Fin 128) :
    (iblk1 V c 0 t : Vec Ideal S1000x128 .f32) (ix2 p k) = V c main_v21_0 (ix2 (rowOf t p) k) := by
  obtain ⟨e0, e1, -⟩ := block_index t
  show V c main_v21_0 (((cfg1.win 0).blk t).view.emb (ix2 p k)) = _
  congr 1
  funext a; apply Fin.ext
  match a with
  | ⟨0, _⟩ => show win1_0.index t (0 : Fin 2) * 1000 + 1 * p.val = 1000 * t.val + p.val; omega
  | ⟨1, _⟩ => show win1_0.index t (1 : Fin 2) * 128 + 1 * k.val = k.val; omega

/-- Block `t` of the aggregated array, at (p, k), is the array at (1000 t + p, k). -/
private theorem blk1_apply (c : Dev nD) (t : Fin cfg1.N) (p : Fin 1000) (k : Fin 128) :
    (iblk1 V c 1 t : Vec Ideal S1000x128 .f32) (ix2 p k) = V c main_v25 (ix2 (rowOf t p) k) := by
  obtain ⟨-, -, e0, e1, -⟩ := block_index t
  show V c main_v25 (((cfg1.win 1).blk t).view.emb (ix2 p k)) = _
  congr 1
  funext a; apply Fin.ext
  match a with
  | ⟨0, _⟩ => show win1_1.index t (0 : Fin 2) * 1000 + 1 * p.val = 1000 * t.val + p.val; omega
  | ⟨1, _⟩ => show win1_1.index t (1 : Fin 2) * 128 + 1 * k.val = k.val; omega

/-- Block `t` of the factor column, at (p, 0), is the column at (1000 t + p, 0). -/
private theorem blk2_apply (c : Dev nD) (t : Fin cfg1.N) (p : Fin 1000) :
    (iblk1 V c 2 t : Vec Ideal S1000x1 .f32) (ix2 p (0 : Fin 1)) = V c main_v18 (ix2 (rowOf t p) (0 : Fin 1)) := by
  obtain ⟨-, -, -, -, e0, e1, -⟩ := block_index t
  show V c main_v18 (((cfg1.win 2).blk t).view.emb (ix2 p (0 : Fin 1))) = _
  congr 1
  funext a; apply Fin.ext
  match a with
  | ⟨0, _⟩ => show win1_2.index t (0 : Fin 2) * 1000 + 1 * p.val = 1000 * t.val + p.val; omega
  | ⟨1, _⟩ => show win1_2.index t (1 : Fin 2) * 1 + 1 * 0 = 0; omega

/-- The one block of the first weight matrix is the matrix. -/
private theorem blk3_apply (c : Dev nD) (t : Fin cfg1.N) (k q : Fin 128) :
    (iblk1 V c 3 t : Vec Ideal S128x128 .f32) (ix2 k q) = V c main_v27 (ix2 k q) := by
  obtain ⟨-, -, -, -, -, -, e0, e1, -⟩ := block_index t
  show V c main_v27 (((cfg1.win 3).blk t).view.emb (ix2 k q)) = _
  congr 1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The one block of the second weight matrix is the matrix. -/
private theorem blk4_apply (c : Dev nD) (t : Fin cfg1.N) (k q : Fin 128) :
    (iblk1 V c 4 t : Vec Ideal S128x128 .f32) (ix2 k q) = V c main_v29 (ix2 k q) := by
  obtain ⟨-, -, -, -, -, -, -, -, e0, e1, -⟩ := block_index t
  show V c main_v29 (((cfg1.win 4).blk t).view.emb (ix2 k q)) = _
  congr 1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- The one block of the bias row is the row. -/
private theorem blk5_apply (c : Dev nD) (t : Fin cfg1.N) (q : Fin 128) :
    (iblk1 V c 5 t : Vec Ideal S1x128 .f32) (ix2 (0 : Fin 1) q) = V c main_v30 (ix2 (0 : Fin 1) q) := by
  obtain ⟨-, -, -, -, -, -, -, -, -, -, e0, e1, -⟩ := block_index t
  show V c main_v30 (((cfg1.win 5).blk t).view.emb (ix2 (0 : Fin 1) q)) = _
  congr 1
  funext a; apply Fin.ext
  match a with
  | ⟨0, _⟩ => show win1_5.index t (0 : Fin 2) * 1 + 1 * 0 = 0; omega
  | ⟨1, _⟩ => show win1_5.index t (1 : Fin 2) * 128 + 1 * q.val = q.val; omega

/-- Entry (p, q) of the result's block `t` sits at (1000 t + p, q) of the result array. -/
private theorem out_emb (t : Fin cfg1.N) (p : Fin 1000) (q : Fin 128) :
    ((cfg1.win 6).blk t).view.emb (ix2 p q) = ix2 (rowOf t p) q := by
  obtain ⟨-, -, -, -, -, -, -, -, -, -, -, -, e0, e1⟩ := block_index t
  funext a; apply Fin.ext
  match a with
  | ⟨0, _⟩ => show win1_6.index t (0 : Fin 2) * 1000 + 1 * p.val = 1000 * t.val + p.val; omega
  | ⟨1, _⟩ => show win1_6.index t (1 : Fin 2) * 128 + 1 * q.val = q.val; omega

/-- What point `t` writes back is block `t` of `outArr`. -/
private theorem flushed_eq (c : Dev nD) (t : Fin cfg1.N) :
    (dat1 (F := Ideal) V c).flushed 6 t = ((cfg1.win 6).blk t).view.read (Elt Ideal) (outArr V c) := by
  show (cfg1.win 6).cut (grid1.coords t) ((dat1 V c).after 6 t) = _
  rw [after1_6]
  unfold out1_6
  rw [View.canon_unit_zero zero_offset]
  simp only [View.ld_unit_zero (S := S1000x128) zero_offset, View.ld_unit_zero (S := S1000x1) zero_offset,
    View.ld_unit_zero (S := S128x128) zero_offset, View.ld_unit_zero (S := S1x128) zero_offset]
  funext y
  obtain ⟨p, q, rfl⟩ : ∃ (p : Fin 1000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
    = outArr V c (((cfg1.win 6).blk t).view.emb (ix2 p q))
  refine (out_payload_apply (iblk1 V c 0 t) (iblk1 V c 1 t) (iblk1 V c 2 t) (iblk1 V c 3 t) (iblk1 V c 4 t) (iblk1 V c 5 t) p q).trans ?_
  rw [out_emb]
  exact linAt_congr (funext fun k => blk0_apply V c t p k) (funext fun k => blk1_apply V c t p k) (blk2_apply V c t p)
    (funext fun k => blk3_apply V c t k q) (funext fun k => blk4_apply V c t k q) (blk5_apply V c t q)

/-- An index of the result array is in point `t`'s block iff each coordinate is in the block's range on its axis. -/
private theorem mem_blk (t : Fin cfg1.N) (i : S50000x128.Idx) :
    i ∈ ((cfg1.win 6).blk t).view.set ↔ ∀ a : Fin 2, win1_6.index t a * S1000x128.size a ≤ (i a).val
      ∧ (i a).val < win1_6.index t a * S1000x128.size a + S1000x128.size a := by
  show i ∈ ((View.whole main_v31).slice (win1_6.rect t)).set ↔ _
  rw [View.set_slice_whole, Rect.mem_set_unit]
  exact Iff.rfl

/-- Every row lies in the block of the point `row / 1000`. -/
private theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 50 := N_1
  let t : Fin cfg1.N := ⟨(i 0).val / 1000, by rw [hN]; omega⟩
  have ht : t.val = (i 0).val / 1000 := rfl
  obtain ⟨-, -, -, -, -, -, -, -, -, -, -, -, e0, e1⟩ := block_index t
  refine ⟨t, flush1_6 t, ?_⟩
  rw [mem_blk]
  intro a
  match a with
  | ⟨0, _⟩ =>
    show win1_6.index t (0 : Fin 2) * 1000 ≤ (i 0).val ∧ (i 0).val < win1_6.index t (0 : Fin 2) * 1000 + 1000
    omega
  | ⟨1, _⟩ =>
    show win1_6.index t (1 : Fin 2) * 128 ≤ (i 1).val ∧ (i 1).val < win1_6.index t (1 : Fin 2) * 128 + 128
    omega

/-- The result array: entry (r, c) is the final linear map of row `r`. -/
theorem region1_out (c : Dev nD) :
    (dat1 (F := Ideal) V c).arrAt 6 cfg1.N
      = (fun i : S50000x128.Idx => linAt (fun k => V c main_v21_0 (ix2 (i 0) k)) (fun k => V c main_v25 (ix2 (i 0) k))
          (V c main_v18 (ix2 (i 0) (0 : Fin 1))) (fun k => V c main_v27 (ix2 k (i 1))) (fun k => V c main_v29 (ix2 k (i 1)))
          (V c main_v30 (ix2 (0 : Fin 1) (i 1)))) :=
  (dat1 (F := Ideal) V c).arrAt_eq_of_cover 6 (outArr V c) (fun t _ => flushed_eq V c t) covered

end Cert.KernelIdeal.Region

end
-- ==== Proof.KHostA.lean ====
/-
  What the host computes before the first pallas_call, read at an entry on the extended reals.

  The feature array reaches the call as launched; the scale and shift rows are the launched vectors laid out as 1 × 128
  rows; the per-row factor column holds, at row `r`, the inverse square root of node `r`'s out-degree clamped below at 1 —
  the same number the reference computes (its maximum takes the operands in the other order: the maximum of two extended
  reals does not depend on the order).
-/
import proofs.«419021_j10359461118094_1_alg».proof.Proof.Gen.KernelIdeal.Frame
import proofs.«419021_j10359461118094_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem

/-- An `[a]` array cast to `[a, 1]` reads, at `(i, u)`, the operand at `i`, whatever the unit coordinate `u`:
    both have row-major position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The inverse square root of a maximum read at an index does not depend on the order of the maximum's operands, and
    depends on each operand only through its entry at that index. -/
private theorem rsqrt_maximumf_comm {s : Shape} (a b a' b' : FVec Ideal s .f32) (i : s.Idx)
    (ha : a i = a' i) (hb : b i = b' i) :
    Host.rsqrt (maximumf a b) i = Host.rsqrt (maximumf b' a') i := by
  show FloatOps.hostUnary .rsqrt (max (a i) (b i)) = FloatOps.hostUnary .rsqrt (max (b' i) (a' i))
  rw [ha, hb, max_comm]

/-- Two scatter-accumulations agree when their dimension records and their three operands do. -/
private theorem scatterAdd_congr {s si u : Shape} {w : Nat} (d d' : ScatterDims s si u) (x x' : FVec Ideal s .f32)
    (idx idx' : IVec si w) (upd upd' : FVec Ideal u .f32)
    (hd : d = d') (hx : x = x') (hi : idx = idx') (hu : upd = upd') :
    Host.scatterAdd d x idx upd = Host.scatterAdd d' x' idx' upd' := by
  subst hd hx hi hu; rfl

variable (m : (ℓ : Loc nD τ sig) → Buf (Elt Ideal) ℓ) (ρ : Dev nD → PrngReg)

/-- The feature array at the first call's entry is the launched one. -/
theorem V1_features (c : Dev nD) : V1 m ρ c main_arg0 = m ((c : Thread nD τ).loc main_arg0) := by
  -- no host operation before the first call writes the feature array
  show StableHlo.after hostOps0 (W0 m ρ c) (Proc.devRef .tc main_arg0) = _
  refine (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans ?_
  rfl

/-- The scale row at the first call's entry. -/
theorem V1_scale_apply (c : Dev nD) (q : Fin 128) :
    V1 m ρ c main_v19 (ix2 (0 : Fin 1) q) = m ((c : Thread nD τ).loc main_arg2) (ix1 q) := by
  -- the row is the launched scale vector cast from [128] to [1, 128]
  show StableHlo.after hostOps0 (W0 m ρ c) (Proc.devRef .tc main_v19) (ix2 (0 : Fin 1) q) = _
  simp only [hostOps0]
  after_results
  exact shapeCast_a_1a_apply (W0 m ρ c (Proc.devRef .tc main_arg2)) shapeCasts_S128_S1x128 0 q

/-- The shift row at the first call's entry. -/
theorem V1_shift_apply (c : Dev nD) (q : Fin 128) :
    V1 m ρ c main_v20 (ix2 (0 : Fin 1) q) = m ((c : Thread nD τ).loc main_arg3) (ix1 q) := by
  -- the row is the launched shift vector cast from [128] to [1, 128]
  show StableHlo.after hostOps0 (W0 m ρ c) (Proc.devRef .tc main_v20) (ix2 (0 : Fin 1) q) = _
  simp only [hostOps0]
  after_results
  exact shapeCast_a_1a_apply (W0 m ρ c (Proc.devRef .tc main_arg3)) shapeCasts_S128_S1x128 0 q

/-- The out-degree factor column at the first call's entry is the reference's out-degree factor vector. -/
theorem V1_outdeg_apply (c : Dev nD) (r : Fin 50000) :
    V1 m ρ c main_v16 (ix2 r (0 : Fin 1))
      = Cert.ReferenceIdeal.Read.val_main_v37 (F := Ideal) (m ((c : Thread nD τ).loc main_arg1)) (ix1 r) := by
  -- the column is the cast to [50000, 1] of rsqrt (max (scatter-add of ones at row 0 of the edge list into zeros) 1)
  show StableHlo.after hostOps0 (W0 m ρ c) (Proc.devRef .tc main_v16) (ix2 r (0 : Fin 1)) = _
  simp only [hostOps0]
  after_results
  refine (shapeCast_a_a1_apply _ shapeCasts_S50000_S50000x1 r 0).trans ?_
  -- the reference: rsqrt (max 1 (the same scatter-add)); compare the two maxima operand by operand
  unfold Cert.ReferenceIdeal.Read.val_main_v37 Cert.ReferenceIdeal.Read.val_main_v32
  refine rsqrt_maximumf_comm _ _ _ _ _ ?_ ?_
  · -- the out-degree counts: the same record, the same zeros, the same indices, the same ones
    unfold Cert.ReferenceIdeal.Read.val_main_v31
    refine congrFun (scatterAdd_congr _ _ _ _ _ _ _ _ ?_ ?_ ?_ ?_) _
    · rfl
    · unfold Cert.ReferenceIdeal.Read.val_main_v29 Cert.ReferenceIdeal.Read.val_main_cst_5
      rfl
    · unfold Cert.ReferenceIdeal.Read.val_main_v30 Cert.ReferenceIdeal.Read.val_main_v1 Cert.ReferenceIdeal.Read.val_main_v0
      rfl
    · unfold Cert.ReferenceIdeal.Read.val_main_v28 Cert.ReferenceIdeal.Read.val_main_cst_4
      rfl
  · -- the lower bound 1, broadcast
    unfold Cert.ReferenceIdeal.Read.val_main_call0_v1 Cert.ReferenceIdeal.Read.val_main_call0_v0
      Cert.ReferenceIdeal.Read.val_main_cst_6
    rfl

end Cert.KernelIdeal.HostVal

end
-- ==== Proof.LibTakeFill.lean ====
/-
  `jnp.take` in its default mode ("fill") against plain indexing `x[idx]`, on the host.

  Both spellings first wrap a negative index word `v` to `v + N` (`N` the indexed axis's extent). Plain indexing then
  gathers. `jnp.take` also gathers, but it keeps the gathered value only where the wrapped word `w` passes the range
  test `0 ≤ w ∧ w ≤ N - 1` (an `and`-reduction of the test over the start-index vector's one component) and puts a fill
  value elsewhere. When every index word lies in `[-N, N)` — NumPy's own domain for the axis — every wrapped word is
  in `[0, N)`, the test passes everywhere, and the select is its first branch: the two spellings are one term.

  Stated over the library only: the wrap of one word (`wrapWord_range`), an `and`-reduction of all-ones
  (`reduce_andi_of_all`), a select under an all-ones mask (`select_of_all_one`), the range test's mask
  (`rangeMask_all_one`), and the two spellings as they print (`take_fill_eq_gather`).
-/
import Idealize.ShloMosaic.Lib.Affine
import Idealize.ShloMosaic.Lib.ReduceAll
import Idealize.ShloMosaic.Lib.ValueIdx
import Idealize.ShloMosaic.PureOps

namespace Idealize.ShloMosaic.TakeFill

open Idealize.ShloMosaic

/-- NumPy's wrap of one index word on an axis of extent `N`: `v + N` when `v` is negative, else `v`. -/
def wrapWord (N v : BitVec 32) : BitVec 32 := Scalar.select (IntOp.cmpi .slt v 0#32) (IntOp.addi v N) v

/-- A word in `[-N, N)` wraps into `[0, N)` (no 32-bit overflow for an extent below 2³⁰). -/
theorem wrapWord_range (N : Nat) (hN : N < 2 ^ 30) (v : BitVec 32) (h1 : -(N : Int) ≤ v.toInt) (h2 : v.toInt < N) :
    0 ≤ (wrapWord (BitVec.ofNat 32 N) v).toInt ∧ (wrapWord (BitVec.ofNat 32 N) v).toInt < N := by
  have hNi : (BitVec.ofNat 32 N).toInt = N := by
    rw [BitVec.toInt_ofNat']; unfold Int.bmod; dsimp only; split <;> omega
  unfold wrapWord
  by_cases hv : v.toInt < 0
  · have hc : IntOp.cmpi .slt v 0#32 = 1#1 := IntOp.cmpi_slt.2 (by simpa using hv)
    rw [hc, ValueIdx.select_one]
    have : (IntOp.addi v (BitVec.ofNat 32 N)).toInt = v.toInt + N := by
      unfold IntOp.addi; rw [BitVec.toInt_add, hNi]; unfold Int.bmod; dsimp only; split <;> omega
    omega
  · have hc : IntOp.cmpi .slt v 0#32 = 0#1 :=
      ValueIdx.eq_zero_of_ne_one fun h => hv (by simpa using IntOp.cmpi_slt.1 h)
    rw [hc, ValueIdx.select_zero]
    omega

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all f l _ (IntOp.andi_eq_one.2 ⟨h, hl a (List.mem_cons_self ..)⟩)
      fun n hn => hl n (List.mem_cons_of_mem _ hn)

/-- `jnp.all` along any axes of an all-ones mask, from the initial value 1, is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x _ _ (hinit _) fun n _ => hx n

/-- A select whose mask is 1 everywhere is its first branch. -/
theorem select_of_all_one {α : Type} {s : Shape} (c : IVec s 1) (a b : s.Idx → α) (hc : ∀ i, c i = 1#1) : select c a b = a := by
  funext i
  rw [ValueIdx.select_apply, hc i, ValueIdx.select_one]

/-- The range test `lo ≤ w ∧ w ≤ hi` (signed), `and`-reduced along any axes and broadcast along any axes, is 1 everywhere
    when every word of `w` passes it. -/
theorem rangeMask_all_one {s t u r : Shape} {axes : List (Fin s.rank)} (w lo hi : IVec s 32) (init : u.Idx → BitVec 1)
    (h : s.ReducesTo axes t) (hu : 0 < u.numel) (dims : Fin t.rank → Fin r.rank) (hb : t.BroadcastsInDim r dims)
    (hinit : ∀ k, init k = 1#1) (hlo : ∀ i, (lo i).toInt ≤ (w i).toInt) (hhi : ∀ i, (w i).toInt ≤ (hi i).toInt) (j : r.Idx) :
    broadcastInDim r dims hb (Host.reduce IntOp.andi (andi (cmpi .sge w lo) (cmpi .sle w hi)) init h hu) j = 1#1 := by
  unfold broadcastInDim
  exact reduce_andi_of_all _ _ h hu hinit
    (fun i => IntOp.andi_eq_one.2 ⟨IntOp.cmpi_sge.2 (hlo i), IntOp.cmpi_sle.2 (hhi i)⟩) _

/-- The start-index column both spellings gather with: the index words wrapped, laid out along `dims₁`. -/
def wrapped {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) : IVec s₂ 32 :=
  broadcastInDim s₂ dims₁ b₁ (select (cmpi .slt idx (broadcastInDim s₁ dims₀ b₀ (constantI ⟨0, ![]⟩ 32 0#32)))
    (addi idx (broadcastInDim s₁ dims₀ b₀' (constantI ⟨0, ![]⟩ 32 (BitVec.ofNat 32 N)))) idx)

/-- Every word of the start-index column is the wrap of an index word. -/
theorem wrapped_apply {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) (i : s₂.Idx) : ∃ k : s₁.Idx, wrapped N dims₀ b₀ b₀' dims₁ b₁ idx i = wrapWord (BitVec.ofNat 32 N) (idx k) :=
  ⟨_, rfl⟩

/-- `jnp.take(x, idx, axis = 0)` in fill mode as it prints: the rows gathered at the wrapped start indices where the range
    test `lo ≤ w ∧ w ≤ hi` holds of the wrapped word (reduced by `and` along `axes` from `init`, broadcast along `dims₅`),
    the fill value elsewhere. -/
def takeFill {α : Type} {sx s₁ s₂ s₃ so u : Shape} {axes : List (Fin s₂.rank)} (d : GatherDims sx s₂ so)
    (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (init : u.Idx → BitVec 1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32) : so.Idx → α :=
  select (broadcastInDim so dims₅ b₅ (Host.reduce IntOp.andi
      (andi (cmpi .sge (wrapped N dims₀ b₀ b₀' dims₁ b₁ idx) lo) (cmpi .sle (wrapped N dims₀ b₀ b₀' dims₁ b₁ idx) hi)) init hred hu))
    (Host.gather d x (wrapped N dims₀ b₀ b₀' dims₁ b₁ idx)) fill

/-- **`jnp.take` in fill mode is the plain gather on in-range indices.** With every index word in `[-N, N)` the range
    test `0 ≤ w ≤ N − 1` of the wrapped start indices passes everywhere, so the select between the gathered rows and the
    fill value is the gathered rows. (`lo` and `hi` are the two bounds as they are broadcast; `init` the reduction's 1.) -/
theorem take_fill_eq_gather {α : Type} {sx s₁ s₂ s₃ so u : Shape} {axes : List (Fin s₂.rank)} (d : GatherDims sx s₂ so)
    (N : Nat) (hN : N < 2 ^ 30) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (hlo : ∀ i, (lo i).toInt = 0) (hhi : ∀ i, (hi i).toInt = (N : Int) - 1)
    (init : u.Idx → BitVec 1) (hinit : ∀ k, init k = 1#1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32)
    (hr : ∀ k, -(N : Int) ≤ (idx k).toInt ∧ (idx k).toInt < N) :
    takeFill d N dims₀ b₀ b₀' dims₁ b₁ lo hi init hred hu dims₅ b₅ x fill idx
      = Host.gather d x (wrapped N dims₀ b₀ b₀' dims₁ b₁ idx) := by
  unfold takeFill
  refine select_of_all_one _ _ _ fun j => rangeMask_all_one _ lo hi init hred hu dims₅ b₅ hinit (fun i => ?_) (fun i => ?_) j
  · obtain ⟨k, hk⟩ := wrapped_apply N dims₀ b₀ b₀' dims₁ b₁ idx i
    rw [hk, hlo i]; exact (wrapWord_range N hN _ (hr k).1 (hr k).2).1
  · obtain ⟨k, hk⟩ := wrapped_apply N dims₀ b₀ b₀' dims₁ b₁ idx i
    rw [hk, hhi i]; have := (wrapWord_range N hN _ (hr k).1 (hr k).2).2; omega

end Idealize.ShloMosaic.TakeFill
-- ==== Proof.KHostB.lean ====
/-
  What the second pallas_call finds in its operands, on the extended reals.

  Its first operand is the first call's normalised array. Its second is the aggregate: the rows of the first call's scaled
  array gathered at the edges' source nodes and added up per destination node. The kernel gathers with a range test and a
  fill value (`jnp.take` in its default mode); when every source index lies in `[-50000, 50000)` the test passes
  everywhere and the gather is the reference's plain gather of the wrapped indices, so the aggregates agree as soon as
  the scaled arrays do. Its third operand holds, at row `r`, the inverse square root of node `r`'s clamped in-degree; the
  two weight operands are the transposed halves of the weight matrix; the last is the bias laid out as a 1 × 128 row.

  Each operand is read by folding the host operations back from the second call's entry: the last stretch (the
  scatter-add, the slices and transposes, the bias row), the take stretch, the first call (which leaves its two results
  and changes nothing else), and the first stretch (the index rows, the degree factors). Each stretch's effect on one
  buffer is stated from any contents before it, so the stretches compose by transitivity; the comparison with the
  reference then goes operation by operation.
-/
import proofs.«419021_j10359461118094_1_alg».proof.Proof.Gen.KernelIdeal.Frame
import proofs.«419021_j10359461118094_1_alg».proof.Proof.Gen.ReferenceIdeal.Read
import proofs.«419021_j10359461118094_1_alg».proof.Proof.LibTakeFill
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem

/-! ## Congruences over variables -/

/-- Two scatter-accumulations are equal when their dimension records and their three operands are. -/
private theorem scatterAdd_eq_of {s si u : Shape} {w : Nat} {d d' : ScatterDims s si u} {x x' : FVec Ideal s .f32}
    {i i' : IVec si w} {v v' : FVec Ideal u .f32} (hd : d = d') (hx : x = x') (hi : i = i') (hv : v = v') :
    Host.scatterAdd d x i v = Host.scatterAdd d' x' i' v' := by
  rw [hd, hx, hi, hv]

/-- Two gathers of one array are equal when their dimension records and their start indices are. -/
private theorem gather_eq_of {α : Type} {s si t : Shape} {w : Nat} {d d' : GatherDims s si t} (x : s.Idx → α)
    {i i' : IVec si w} (hd : d = d') (hi : i = i') : Host.gather d x i = Host.gather d' x i' := by
  rw [hd, hi]

/-- A vector cast to a one-column array reads, at row `i`, the vector's entry `i`: both sit at row-major position `i`. -/
private theorem shapeCast_col_apply {α : Type} {n : ℕ} (x : (⟨1, ![n]⟩ : Shape).Idx → α)
    (h : (⟨1, ![n]⟩ : Shape).ShapeCasts ⟨2, ![n, 1]⟩) (i : Fin n) :
    shapeCast ⟨2, ![n, 1]⟩ x h (ix2 i (0 : Fin 1)) = x (ix1 i) :=
  shapeCast_apply x h _ _ (by
    rw [Shape.rowMajor_val_two, Shape.rowMajor_val_one]
    show i.val = i.val * 1 + 0
    omega)

/-- The inverse square root of a maximum, read at an index, with the maximum's operands exchanged: the maximum of two
    extended reals does not depend on their order. -/
private theorem rsqrt_max_swap {s : Shape} (a b : FVec Ideal s .f32) (i : s.Idx) :
    Host.rsqrt (maximumf a b) i = Host.rsqrt (maximumf b a) i :=
  congrArg (FloatOps.hostUnary HostUnaryOp.rsqrt)
    ((maximumf_apply a b i).trans ((max_comm (a i) (b i)).trans (maximumf_apply b a i).symm))

/-- The inverse square root of a maximum depends only on the maximum's two operands. -/
private theorem rsqrt_max_congr {s : Shape} {a a' b b' : FVec Ideal s .f32} (ha : a = a') (hb : b = b') (i : s.Idx) :
    Host.rsqrt (maximumf a b) i = Host.rsqrt (maximumf a' b') i := by
  rw [ha, hb]

variable (m : (ℓ : Loc nD τ sig) → Buf (Elt Ideal) ℓ) (ρ : Dev nD → PrngReg)

/-! ## The host stretches, one buffer at a time, from any contents before the stretch -/

/-- The aggregate's scatter-add, read off the last host stretch from any contents before it. -/
private theorem after_agg (V : Valuation τ sig (Elt Ideal)) :
    StableHlo.after hostOps1_1 V (Proc.devRef .tc main_v25)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (V (Proc.devRef .tc main_v3)))
          (V (Proc.devRef .tc main_v22)) := by
  simp only [hostOps1_1]
  after_results

/-- The gathered rows as the take stretch leaves them, from any contents before it: the fill-mode take of the
    scaled array at the source indices (the stretch's typed references carry their contents through casts along
    equations that hold by computation; the casts cancel). -/
private theorem after_take (V : Valuation τ sig (Elt Ideal)) :
    StableHlo.after hostOps1 V (Proc.devRef .tc main_v22)
      = TakeFill.takeFill gather_S50000x128_S600000x1_S600000x128_1_0_n_n_0_1_1128 50000
          ![] bcast_S_S600000 bcast_S_S600000 ![0] bcast_S600000_S600000x1_0
          (broadcastInDim S600000x1 ![] bcast_S_S600000x1 (constantI S_ 32 0#32))
          (broadcastInDim S600000x1 ![0, 1] bcast_S1x1_S600000x1_0_1 (broadcastInDim S1x1 ![1] bcast_S1_S1x1_1 (constantI S1 32 49999#32)))
          (constantI S_ 1 1#1) reducesTo_S600000x1_S600000_d1 h_S_
          ![0] bcast_S600000_S600000x128_0
          (V (Proc.devRef .tc main_v21_1))
          (broadcastInDim S600000x128 ![] bcast_S_S600000x128 (constant (F := Ideal) S_ .f32 0x7FC00000#32))
          (V (Proc.devRef .tc main_v1)) := by
  simp only [hostOps1]
  simp (disch := decide) only [StableHlo.after_cons, StableHlo.after_nil,
      StableHlo.nullary_result', StableHlo.unary_result', StableHlo.binary_result', StableHlo.ternary_result',
      StableHlo.nullary_result_ne', StableHlo.unary_result_ne', StableHlo.binary_result_ne', StableHlo.ternary_result_ne',
      cast_cast, cast_eq]
  rfl

/-- The take stretch does not write the destination indices. -/
private theorem after_take_dst (V : Valuation τ sig (Elt Ideal)) :
    StableHlo.after hostOps1 V (Proc.devRef .tc main_v3) = V (Proc.devRef .tc main_v3) := by
  simp only [hostOps1]
  after_results_simp

/-- The source indices (row 0 of the edge list) after the first host stretch, from any contents before it. -/
private theorem after0_src (V : Valuation τ sig (Elt Ideal)) :
    StableHlo.after hostOps0 V (Proc.devRef .tc main_v1)
      = shapeCast S600000 (extractStridedSlice S1x600000 ![0, 0] (V (Proc.devRef .tc main_arg1)) slices_S2x600000_S1x600000_0_0)
          shapeCasts_S1x600000_S600000 := by
  simp only [hostOps0]
  after_results
  rfl

/-- The destination indices (row 1 of the edge list) after the first host stretch, from any contents before it. -/
private theorem after0_dst (V : Valuation τ sig (Elt Ideal)) :
    StableHlo.after hostOps0 V (Proc.devRef .tc main_v3)
      = shapeCast S600000 (extractStridedSlice S1x600000 ![1, 0] (V (Proc.devRef .tc main_arg1)) slices_S2x600000_S1x600000_1_0)
          shapeCasts_S1x600000_S600000 := by
  simp only [hostOps0]
  after_results
  rfl

/-- The in-degree factor column after the first host stretch, from any contents before it: the inverse square root of the
    in-degree counts (ones scatter-added at the destination indices into zeros) clamped below at 1, as a column. -/
private theorem after0_indeg (V : Valuation τ sig (Elt Ideal)) :
    StableHlo.after hostOps0 V (Proc.devRef .tc main_v18)
      = shapeCast S50000x1 (Host.rsqrt (maximumf
          (Host.scatterAdd scatter_S50000_S600000x1_S600000_n_0_0_1
            (broadcastInDim S50000 ![] bcast_S_S50000 (constant (F := Ideal) S_ .f32 0x00000000#32))
            (broadcastInDim S600000x1 ![0] bcast_S600000_S600000x1_0
              (shapeCast S600000 (extractStridedSlice S1x600000 ![1, 0] (V (Proc.devRef .tc main_arg1)) slices_S2x600000_S1x600000_1_0)
                shapeCasts_S1x600000_S600000))
            (broadcastInDim S600000 ![] bcast_S_S600000 (constant (F := Ideal) S_ .f32 0x3F800000#32)))
          (broadcastInDim S50000 ![] bcast_S_S50000 (constant (F := Ideal) S_ .f32 0x3F800000#32))))
          shapeCasts_S50000_S50000x1 := by
  simp only [hostOps0]
  after_results
  rfl

/-- The take stretch does not write the in-degree factor column. -/
private theorem after_take_indeg (V : Valuation τ sig (Elt Ideal)) :
    StableHlo.after hostOps1 V (Proc.devRef .tc main_v18) = V (Proc.devRef .tc main_v18) := by
  simp only [hostOps1]
  after_results_simp

/-- The last host stretch does not write the in-degree factor column. -/
private theorem after_last_indeg (V : Valuation τ sig (Elt Ideal)) :
    StableHlo.after hostOps1_1 V (Proc.devRef .tc main_v18) = V (Proc.devRef .tc main_v18) := by
  simp only [hostOps1_1]
  after_results

/-! ## The index rows and the arguments after the first call -/

/-- After the first call the source indices are the reference's. -/
private theorem W2_src (c : Dev nD) :
    W2 m ρ c (Proc.devRef .tc main_v1) = Cert.ReferenceIdeal.Read.val_main_v1 (F := Ideal) (m ((c : Thread nD τ).loc main_arg1)) :=
  (W2_of_ne m ρ c main_v1 (by decide)).trans ((after0_src (W0 m ρ c)).trans rfl)

/-- After the first call the destination indices are the reference's. -/
private theorem W2_dst (c : Dev nD) :
    W2 m ρ c (Proc.devRef .tc main_v3) = Cert.ReferenceIdeal.Read.val_main_v3 (F := Ideal) (m ((c : Thread nD τ).loc main_arg1)) :=
  (W2_of_ne m ρ c main_v3 (by decide)).trans ((after0_dst (W0 m ρ c)).trans rfl)

/-- The weight matrix is as launched after the first call: no host operation of the first stretch and no window of
    the first call writes it. -/
private theorem W2_weights (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  simp only [hostOps0]
  after_results

/-- The bias vector is as launched after the first call. -/
private theorem W2_bias (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  simp only [hostOps0]
  after_results

/-! ## The second call's operands -/

/-- The second call's first operand is the first call's normalised array. -/
theorem V4_hn (c : Dev nD) : V4 m ρ c main_v21_0 = (dat0 (F := Ideal) (V1 m ρ) c).arrAt 4 cfg0.N := by
  -- neither later stretch writes the first call's first result
  show StableHlo.after hostOps1_1 (W3 m ρ c) (Proc.devRef .tc main_v21_0) = _
  simp only [hostOps1_1]
  after_results
  exact W2_arr m ρ c 4

/-- The aggregate: with every source index in `[-50000, 50000)` and the first call's scaled array equal to the reference's,
    the kernel's aggregate is the reference's. -/
theorem V4_agg (c : Dev nD) (x0 : (⟨S50000x128, .f32⟩ : BufTy).Contents (Elt Ideal)) (x2 x3 : (⟨S128, .f32⟩ : BufTy).Contents (Elt Ideal))
    (hr : ∀ k, -(50000 : Int) ≤ (Cert.ReferenceIdeal.Read.val_main_v1 (F := Ideal) (m ((c : Thread nD τ).loc main_arg1)) k).toInt
      ∧ (Cert.ReferenceIdeal.Read.val_main_v1 (F := Ideal) (m ((c : Thread nD τ).loc main_arg1)) k).toInt < 50000)
    (hmsg : (dat0 (F := Ideal) (V1 m ρ) c).arrAt 5 cfg0.N
      = Cert.ReferenceIdeal.Read.val_main_v41 (F := Ideal) x0 (m ((c : Thread nD τ).loc main_arg1)) x2 x3) :
    V4 m ρ c main_v25
      = Cert.ReferenceIdeal.Read.val_main_v51 (F := Ideal) x0 (m ((c : Thread nD τ).loc main_arg1)) x2 x3 := by
  -- the destination indices reach the last stretch as the reference's
  have e1 : W3 m ρ c (Proc.devRef .tc main_v3)
      = Cert.ReferenceIdeal.Read.val_main_v3 (F := Ideal) (m ((c : Thread nD τ).loc main_arg1)) :=
    (after_take_dst (W2 m ρ c)).trans (W2_dst m ρ c)
  -- the first call leaves the scaled array in its second result, which the hypothesis identifies
  have e5 : W2 m ρ c (Proc.devRef .tc main_v21_1)
      = Cert.ReferenceIdeal.Read.val_main_v41 (F := Ideal) x0 (m ((c : Thread nD τ).loc main_arg1)) x2 x3 :=
    (W2_arr m ρ c 5).trans hmsg
  -- the fill-mode take of the scaled array: with every source index in range its range test passes everywhere
  have e2 : W3 m ρ c (Proc.devRef .tc main_v22)
      = Host.gather gather_S50000x128_S600000x1_S600000x128_1_0_n_n_0_1_1128
          (Cert.ReferenceIdeal.Read.val_main_v41 (F := Ideal) x0 (m ((c : Thread nD τ).loc main_arg1)) x2 x3)
          (TakeFill.wrapped 50000 ![] bcast_S_S600000 bcast_S_S600000 ![0] bcast_S600000_S600000x1_0
            (Cert.ReferenceIdeal.Read.val_main_v1 (F := Ideal) (m ((c : Thread nD τ).loc main_arg1)))) := by
    refine (after_take (W2 m ρ c)).trans ?_
    rw [W2_src, e5]
    exact TakeFill.take_fill_eq_gather _ 50000 (by norm_num) _ _ _ _ _ _ _ (fun _ => rfl) (fun _ => rfl) _ (fun _ => rfl)
      _ _ _ _ _ _ _ hr
  refine (after_agg (W3 m ρ c)).trans ?_
  rw [e1, e2]
  -- the reference's aggregate: the same scatter-add of the plain gather at the wrapped indices
  unfold Cert.ReferenceIdeal.Read.val_main_v51 Cert.ReferenceIdeal.Read.val_main_v48
  refine scatterAdd_eq_of rfl ?_ ?_ (gather_eq_of _ rfl ?_)
  · unfold Cert.ReferenceIdeal.Read.val_main_v49 Cert.ReferenceIdeal.Read.val_main_cst_10
    rfl
  · unfold Cert.ReferenceIdeal.Read.val_main_v50
    rfl
  · unfold Cert.ReferenceIdeal.Read.val_main_v47 Cert.ReferenceIdeal.Read.val_main_v46 Cert.ReferenceIdeal.Read.val_main_v43
      Cert.ReferenceIdeal.Read.val_main_v45 Cert.ReferenceIdeal.Read.val_main_v42 Cert.ReferenceIdeal.Read.val_main_v44
      Cert.ReferenceIdeal.Read.val_main_c Cert.ReferenceIdeal.Read.val_main_c_9 TakeFill.wrapped
    rfl

/-- The in-degree factor column at the second call's entry is the reference's in-degree factor vector. -/
theorem V4_indeg_apply (c : Dev nD) (r : Fin 50000) :
    V4 m ρ c main_v18 (ix2 r (0 : Fin 1))
      = Cert.ReferenceIdeal.Read.val_main_v38 (F := Ideal) (m ((c : Thread nD τ).loc main_arg1)) (ix1 r) := by
  -- the column is written before the first call and untouched afterwards
  have h := (after_last_indeg (W3 m ρ c)).trans ((after_take_indeg (W2 m ρ c)).trans
    ((W2_of_ne m ρ c main_v18 (by decide)).trans (after0_indeg (W0 m ρ c))))
  refine (congrFun h _).trans ((shapeCast_col_apply _ _ r).trans ((rsqrt_max_swap _ _ _).trans ?_))
  -- the reference: rsqrt (max 1 (the same counts)), compared operand by operand
  unfold Cert.ReferenceIdeal.Read.val_main_v38 Cert.ReferenceIdeal.Read.val_main_v36
  refine rsqrt_max_congr ?_ ?_ _
  · unfold Cert.ReferenceIdeal.Read.val_main_call1_v1 Cert.ReferenceIdeal.Read.val_main_call1_v0
      Cert.ReferenceIdeal.Read.val_main_cst_8
    rfl
  · unfold Cert.ReferenceIdeal.Read.val_main_v35
    refine scatterAdd_eq_of rfl ?_ ?_ ?_
    · unfold Cert.ReferenceIdeal.Read.val_main_v33 Cert.ReferenceIdeal.Read.val_main_cst_7
      rfl
    · unfold Cert.ReferenceIdeal.Read.val_main_v34 Cert.ReferenceIdeal.Read.val_main_v3 Cert.ReferenceIdeal.Read.val_main_v2
      rfl
    · unfold Cert.ReferenceIdeal.Read.val_main_v28 Cert.ReferenceIdeal.Read.val_main_cst_4
      rfl

/-- The first weight operand: entry (k, j) is the weight matrix at (j, k). -/
theorem V4_w1_apply (c : Dev nD) (k j : Fin 128) :
    V4 m ρ c main_v27 (ix2 k j) = m ((c : Thread nD τ).loc main_arg4) (ix2 j (⟨k.val, by omega⟩ : Fin 256)) := by
  have h : V4 m ρ c main_v27 = transpose S128x128 [1, 0] (extractStridedSlice S128x128 ![0, 0]
      (m ((c : Thread nD τ).loc main_arg4)) slices_S128x256_S128x128_0_0) transposes_S128x128_S128x128_1_0 := by
    show StableHlo.after hostOps1_1 (W3 m ρ c) (Proc.devRef .tc main_v27) = _
    simp only [hostOps1_1]
    after_results
    rw [W2_weights]
  rw [h]
  -- the transpose reads (j, k) of the slice, the slice (j, 0 + k) of the matrix
  refine (transpose_apply _ _ _ _ (ix2 j k) (fun b => by match b with | ⟨0, _⟩ => rfl | ⟨1, _⟩ => rfl)).trans ?_
  exact extractStridedSlice_apply _ _ _ _ _
    (fun a => by match a with | ⟨0, _⟩ => exact (Nat.zero_add _).symm | ⟨1, _⟩ => exact (Nat.zero_add _).symm)

/-- The second weight operand: entry (k, j) is the weight matrix at (j, 128 + k). -/
theorem V4_w2_apply (c : Dev nD) (k j : Fin 128) :
    V4 m ρ c main_v29 (ix2 k j) = m ((c : Thread nD τ).loc main_arg4) (ix2 j (⟨128 + k.val, by omega⟩ : Fin 256)) := by
  have h : V4 m ρ c main_v29 = transpose S128x128 [1, 0] (extractStridedSlice S128x128 ![0, 128]
      (m ((c : Thread nD τ).loc main_arg4)) slices_S128x256_S128x128_0_128) transposes_S128x128_S128x128_1_0 := by
    show StableHlo.after hostOps1_1 (W3 m ρ c) (Proc.devRef .tc main_v29) = _
    simp only [hostOps1_1]
    after_results
    rw [W2_weights]
  rw [h]
  -- the transpose reads (j, k) of the slice, the slice (j, 128 + k) of the matrix
  refine (transpose_apply _ _ _ _ (ix2 j k) (fun b => by match b with | ⟨0, _⟩ => rfl | ⟨1, _⟩ => rfl)).trans ?_
  exact extractStridedSlice_apply _ _ _ _ _
    (fun a => by match a with | ⟨0, _⟩ => exact (Nat.zero_add _).symm | ⟨1, _⟩ => rfl)

/-- The bias row. -/
theorem V4_bias_apply (c : Dev nD) (j : Fin 128) :
    V4 m ρ c main_v30 (ix2 (0 : Fin 1) j) = m ((c : Thread nD τ).loc main_arg5) (ix1 j) := by
  have h : V4 m ρ c main_v30 = shapeCast S1x128 (m ((c : Thread nD τ).loc main_arg5)) shapeCasts_S128_S1x128 := by
    show StableHlo.after hostOps1_1 (W3 m ρ c) (Proc.devRef .tc main_v30) = _
    simp only [hostOps1_1]
    after_results
    rw [W2_bias]
    rfl
  rw [h]
  -- a vector cast to a one-row array reads, at column j, the vector's entry j
  refine (shapeCast_addUnit_apply ![128] _ _ _).trans ?_
  exact congrArg _ (funext fun a => by match a with | ⟨0, _⟩ => rfl)

end Cert.KernelIdeal.HostVal

end
-- ==== Proof.RefRead.lean ====
/-
  The reference, entry by entry, on the extended reals.

  Its normalised array at (r, q) is LayerNorm (`Spec.lnAt`) of row `r` of the features with entry `q` of the scale and
  shift; its scaled array multiplies row `r` of that by the inverse square root of node `r`'s clamped out-degree; its
  result at (r, c) is one 256-term product of the row `[normalised row r ‖ aggregated row r · inverse square root of the
  clamped in-degree of r]` with row `c` of the weights, plus the bias: the 256-term sum is the sum of its two halves
  (`Spec.sum_256_split`), which is `Spec.linAt`.
-/
import proofs.«419021_j10359461118094_1_alg».proof.Proof.Gen.ReferenceIdeal.Read
import proofs.«419021_j10359461118094_1_alg».proof.Proof.Spec
import proofs.«419021_j10359461118094_1_alg».proof.Proof.LibMeanAggregate
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- The mean of row `r` of the features, as the reference computes it: the row's sum (from zero) over 128. -/
private theorem mean_apply (x0 : (⟨S50000x128, .f32⟩ : BufTy).Contents (Elt Ideal)) (r : Fin 50000) (z : Fin 1) :
    val_main_v7 (F := Ideal) x0 (ix2 r z) = rowMean (fun k => x0 (ix2 r k)) := by
  rw [val_main_v7_apply, val_main_v5_apply, val_main_v4_apply, val_main_v6_apply]
  show Ideal.div (Ideal.ofBits .f32 0x00000000#32 + ∑ k : Fin 128, x0 (idx_main_v4 (idx_main_v5 (ix2 r z)) k)) c128 = _
  rw [Ideal.ofBits_zero_f32, zero_add]
  unfold rowMean
  refine congrArg (Ideal.div · c128) (Finset.sum_congr rfl fun k _ => congrArg x0 ?_)
  exact funext fun a => Fin.ext (by match a with | ⟨0, _⟩ => rfl | ⟨1, _⟩ => rfl)

/-- The deviation of entry (r, q) from its row's mean (the copy that is squared for the variance). -/
private theorem dev_apply (x0 : (⟨S50000x128, .f32⟩ : BufTy).Contents (Elt Ideal)) (r : Fin 50000) (q : Fin 128) :
    val_main_v9 (F := Ideal) x0 (ix2 r q) = rowDev (fun k => x0 (ix2 r k)) q := by
  have e : idx_main_v8 (ix2 r q) = ix2 r (0 : Fin 1) :=
    funext fun a => Fin.ext (by match a with | ⟨0, _⟩ => rfl | ⟨1, _⟩ => rfl)
  rw [val_main_v9_apply, val_main_v8_apply, e, mean_apply]
  rfl

/-- The deviation of entry (r, q) from its row's mean (the copy that is normalised). -/
private theorem dev'_apply (x0 : (⟨S50000x128, .f32⟩ : BufTy).Contents (Elt Ideal)) (r : Fin 50000) (q : Fin 128) :
    val_main_v16 (F := Ideal) x0 (ix2 r q) = rowDev (fun k => x0 (ix2 r k)) q := by
  have e : idx_main_v15 (ix2 r q) = ix2 r (0 : Fin 1) :=
    funext fun a => Fin.ext (by match a with | ⟨0, _⟩ => rfl | ⟨1, _⟩ => rfl)
  rw [val_main_v16_apply, val_main_v15_apply, e, mean_apply]
  rfl

/-- The variance of row `r`: the sum (from zero) of the squared deviations over 128. -/
private theorem var_apply (x0 : (⟨S50000x128, .f32⟩ : BufTy).Contents (Elt Ideal)) (r : Fin 50000) (z : Fin 1) :
    val_main_v14 (F := Ideal) x0 (ix2 r z) = rowVar (fun k => x0 (ix2 r k)) := by
  rw [val_main_v14_apply, val_main_v12_apply, val_main_v11_apply, val_main_v13_apply]
  show Ideal.div (Ideal.ofBits .f32 0x00000000#32
    + ∑ k : Fin 128, val_main_v10 (F := Ideal) x0 (idx_main_v11 (idx_main_v12 (ix2 r z)) k)) c128 = _
  rw [Ideal.ofBits_zero_f32, zero_add]
  unfold rowVar
  refine congrArg (Ideal.div · c128) (Finset.sum_congr rfl fun k _ => ?_)
  have e : idx_main_v11 (idx_main_v12 (ix2 r z)) k = ix2 r k :=
    funext fun a => Fin.ext (by match a with | ⟨0, _⟩ => rfl | ⟨1, _⟩ => rfl)
  rw [e, val_main_v10_apply, dev_apply]
  rfl

/-- The inverse square root of row `r`'s variance plus ε. -/
private theorem rstd_apply (x0 : (⟨S50000x128, .f32⟩ : BufTy).Contents (Elt Ideal)) (r : Fin 50000) (z : Fin 1) :
    val_main_v19 (F := Ideal) x0 (ix2 r z) = Ideal.rsqrt (rowVar (fun k => x0 (ix2 r k)) + ceps) := by
  rw [val_main_v19_apply, val_main_v18_apply, val_main_v17_apply, var_apply]
  rfl

/-- The reference's normalised array at (r, q). -/
theorem hn_apply (x0 : (⟨S50000x128, .f32⟩ : BufTy).Contents (Elt Ideal)) (x2 x3 : (⟨S128, .f32⟩ : BufTy).Contents (Elt Ideal))
    (r : Fin 50000) (q : Fin 128) :
    val_main_v27 (F := Ideal) x0 x2 x3 (ix2 r q) = lnAt (fun k => x0 (ix2 r k)) (x2 (ix1 q)) (x3 (ix1 q)) q := by
  have e20 : idx_main_v20 (ix2 r q) = ix2 r (0 : Fin 1) :=
    funext fun a => Fin.ext (by match a with | ⟨0, _⟩ => rfl | ⟨1, _⟩ => rfl)
  have e22 : idx_main_v22 (idx_main_v23 (ix2 r q)) = ix1 q :=
    funext fun a => Fin.ext (by match a with | ⟨0, _⟩ => rfl)
  have e25 : idx_main_v25 (idx_main_v26 (ix2 r q)) = ix1 q :=
    funext fun a => Fin.ext (by match a with | ⟨0, _⟩ => rfl)
  rw [val_main_v27_apply, val_main_v24_apply, val_main_v21_apply, val_main_v20_apply, val_main_v23_apply,
    val_main_v22_apply, val_main_v26_apply, val_main_v25_apply, dev'_apply, e20, e22, e25, rstd_apply]
  rfl

/-- The reference's scaled array at (r, q): the normalised entry times node `r`'s out-degree factor. -/
theorem msg_apply (x0 : (⟨S50000x128, .f32⟩ : BufTy).Contents (Elt Ideal)) (x1 : (⟨S2x600000, .i32⟩ : BufTy).Contents (Elt Ideal))
    (x2 x3 : (⟨S128, .f32⟩ : BufTy).Contents (Elt Ideal)) (r : Fin 50000) (q : Fin 128) :
    val_main_v41 (F := Ideal) x0 x1 x2 x3 (ix2 r q)
      = val_main_v27 (F := Ideal) x0 x2 x3 (ix2 r q) * val_main_v37 (F := Ideal) x1 (ix1 r) := by
  have e : idx_main_v39 (idx_main_v40 (ix2 r q)) = ix1 r :=
    funext fun a => Fin.ext (by match a with | ⟨0, _⟩ => rfl)
  rw [val_main_v41_apply, val_main_v40_apply, val_main_v39_apply, e]
  rfl

/-- The joined row at (r, j): the normalised entry for j < 128, else the scaled aggregated entry at j − 128. -/
private theorem cat_apply (x0 : (⟨S50000x128, .f32⟩ : BufTy).Contents (Elt Ideal)) (x1 : (⟨S2x600000, .i32⟩ : BufTy).Contents (Elt Ideal))
    (x2 x3 : (⟨S128, .f32⟩ : BufTy).Contents (Elt Ideal)) (r : Fin 50000) (j : Fin 256) :
    val_main_v55 (F := Ideal) x0 x1 x2 x3 (ix2 r j)
      = if hj : j.val < 128 then val_main_v27 (F := Ideal) x0 x2 x3 (ix2 r ⟨j.val, hj⟩)
        else val_main_v54 (F := Ideal) x0 x1 x2 x3 (ix2 r ⟨j.val - 128, by omega⟩) := by
  unfold val_main_v55
  exact MeanAggregate.concat_cols_apply 50000 128 128 256 rfl _ _ concatenates_S50000x128_S50000x128_S50000x256_d1 r j

/-- The scaled aggregated array at (r, k): the aggregated entry times node `r`'s in-degree factor. -/
private theorem agg_apply (x0 : (⟨S50000x128, .f32⟩ : BufTy).Contents (Elt Ideal)) (x1 : (⟨S2x600000, .i32⟩ : BufTy).Contents (Elt Ideal))
    (x2 x3 : (⟨S128, .f32⟩ : BufTy).Contents (Elt Ideal)) (r : Fin 50000) (k : Fin 128) :
    val_main_v54 (F := Ideal) x0 x1 x2 x3 (ix2 r k)
      = val_main_v51 (F := Ideal) x0 x1 x2 x3 (ix2 r k) * val_main_v38 (F := Ideal) x1 (ix1 r) := by
  have e : idx_main_v52 (idx_main_v53 (ix2 r k)) = ix1 r :=
    funext fun a => Fin.ext (by match a with | ⟨0, _⟩ => rfl)
  rw [val_main_v54_apply, val_main_v53_apply, val_main_v52_apply, e]
  rfl

/-- The transposed weights at (k, c) are the weights at (c, k). -/
private theorem wt_apply (x4 : (⟨S128x256, .f32⟩ : BufTy).Contents (Elt Ideal)) (k : Fin 256) (c : Fin 128) :
    val_main_v56 (F := Ideal) x4 (ix2 k c) = x4 (ix2 c k) := by
  rw [val_main_v56_apply]
  exact congrArg x4 (funext fun a => Fin.ext (by match a with | ⟨0, _⟩ => rfl | ⟨1, _⟩ => rfl))

/-- The reference's result at (r, c). -/
theorem out_apply (x0 : (⟨S50000x128, .f32⟩ : BufTy).Contents (Elt Ideal)) (x1 : (⟨S2x600000, .i32⟩ : BufTy).Contents (Elt Ideal))
    (x2 x3 : (⟨S128, .f32⟩ : BufTy).Contents (Elt Ideal)) (x4 : (⟨S128x256, .f32⟩ : BufTy).Contents (Elt Ideal))
    (x5 : (⟨S128, .f32⟩ : BufTy).Contents (Elt Ideal)) (r : Fin 50000) (c : Fin 128) :
    val_main_v60 (F := Ideal) x0 x1 x2 x3 x4 x5 (ix2 r c)
      = linAt (fun k => val_main_v27 (F := Ideal) x0 x2 x3 (ix2 r k)) (fun k => val_main_v51 (F := Ideal) x0 x1 x2 x3 (ix2 r k))
          (val_main_v38 (F := Ideal) x1 (ix1 r))
          (fun k => x4 (ix2 c (⟨k.val, by omega⟩ : Fin 256))) (fun k => x4 (ix2 c (⟨128 + k.val, by omega⟩ : Fin 256)))
          (x5 (ix1 c)) := by
  have el : ∀ k : Fin 256, lidx_main_v57 (ix2 r c) k = ix2 r k := fun k =>
    funext fun a => Fin.ext (by match a with | ⟨0, _⟩ => rfl | ⟨1, _⟩ => rfl)
  have er : ∀ k : Fin 256, ridx_main_v57 (ix2 r c) k = ix2 k c := fun k =>
    funext fun a => Fin.ext (by match a with | ⟨0, _⟩ => rfl | ⟨1, _⟩ => rfl)
  have eb : idx_main_v58 (idx_main_v59 (ix2 r c)) = ix1 c :=
    funext fun a => Fin.ext (by match a with | ⟨0, _⟩ => rfl)
  rw [val_main_v60_apply, val_main_v59_apply, val_main_v58_apply, eb, val_main_v57_apply]
  simp only [el, er, wt_apply, cat_apply]
  rw [sum_256_split]
  unfold linAt
  show (_ + _) + _ = _
  refine congrArg (· + x5 (ix1 c)) (congrArg₂ (· + ·) ?_ ?_)
  · -- the first 128 terms: the normalised row against the first half of weight row c
    refine Finset.sum_congr rfl fun k _ => ?_
    rw [dif_pos k.isLt]
  · -- the last 128 terms: the scaled aggregated row against the second half of weight row c
    refine Finset.sum_congr rfl fun k _ => ?_
    have hk : ¬ (128 + k.val < 128) := by omega
    have e : (⟨128 + k.val - 128, by omega⟩ : Fin 128) = k := Fin.ext (by show 128 + k.val - 128 = k.val; omega)
    rw [dif_neg hk, e, agg_apply]

end Cert.ReferenceIdeal.RefValue

end
-- ==== Proof.Bridge.lean ====
/-
  The kernel's result array is the reference's.

  Both programs normalise every feature row (LayerNorm), scale row `r` by the inverse square root of node `r`'s clamped
  out-degree, gather the scaled rows at the edges' source nodes and add them up per destination node, scale row `r` of that
  aggregate by the inverse square root of node `r`'s clamped in-degree, and apply one linear map to the pair
  (normalised row, scaled aggregate row). The kernel does the row-wise stages block by block in two pallas_calls and the
  gather/scatter on the host; the reference does everything on the host. Stage by stage the arrays agree: the
  normalised array and the scaled array entry by entry (`hn_eq`, `msg_eq`); the aggregate because, with every source
  index in `[-50000, 50000)`, the kernel's filled gather is the plain gather (`V4_agg`); and the result because the
  256-term product against the concatenated row is the sum of the two 128-term products (`result_eq`).
-/
import proofs.«419021_j10359461118094_1_alg».proof.Proof.KRegion0
import proofs.«419021_j10359461118094_1_alg».proof.Proof.KRegion1
import proofs.«419021_j10359461118094_1_alg».proof.Proof.KHostA
import proofs.«419021_j10359461118094_1_alg».proof.Proof.KHostB
import proofs.«419021_j10359461118094_1_alg».proof.Proof.RefRead
import Idealize.ShloMosaic.Lib.ValueIdx
import Idealize.ShloMosaic.Lib.Pipeline.Value

set_option maxRecDepth 16384

noncomputable section

open scoped BigOperators

namespace Cert.KernelIdeal.Bridge

open Cert.KernelIdeal Cert.KernelIdeal.Gen Cert.KernelIdeal.Region Cert.KernelIdeal.HostVal
open Idealize.ShloMosaic Idealize.ShloMosaic.TcCoe Idealize.ShloMosaic.ValueIdx Idealize.SL.Sem Cert.Spec
open Cert.ReferenceIdeal.Read (val_main_v1 val_main_v27 val_main_v37 val_main_v38 val_main_v41 val_main_v51 val_main_v60)
open Cert.ReferenceIdeal.RefValue (hn_apply msg_apply out_apply)

variable (m : (ℓ : Loc nD τ sig) → Buf (Elt Ideal) ℓ) (ρ : Dev nD → PrngReg)

/-- The first call's normalised array is the reference's. -/
theorem hn_eq (c : Dev nD) :
    (dat0 (F := Ideal) (V1 m ρ) c).arrAt 4 cfg0.N
      = val_main_v27 (F := Ideal) (m ((c : Thread nD τ).loc main_arg0)) (m ((c : Thread nD τ).loc main_arg2)) (m ((c : Thread nD τ).loc main_arg3)) := by
  rw [region0_hn]
  funext i
  obtain ⟨r, q, rfl⟩ : ∃ (r : Fin 50000) (q : Fin 128), i = ix2 r q := ⟨i 0, i 1, eq_ix2 i⟩
  rw [hn_apply]
  show lnAt (fun k => V1 m ρ c main_arg0 (ix2 r k)) (V1 m ρ c main_v19 (ix2 (0 : Fin 1) q)) (V1 m ρ c main_v20 (ix2 (0 : Fin 1) q)) q = _
  rw [V1_features, V1_scale_apply, V1_shift_apply]

/-- The first call's scaled array is the reference's. -/
theorem msg_eq (c : Dev nD) :
    (dat0 (F := Ideal) (V1 m ρ) c).arrAt 5 cfg0.N
      = val_main_v41 (F := Ideal) (m ((c : Thread nD τ).loc main_arg0)) (m ((c : Thread nD τ).loc main_arg1)) (m ((c : Thread nD τ).loc main_arg2)) (m ((c : Thread nD τ).loc main_arg3)) := by
  rw [region0_msg]
  funext i
  obtain ⟨r, q, rfl⟩ : ∃ (r : Fin 50000) (q : Fin 128), i = ix2 r q := ⟨i 0, i 1, eq_ix2 i⟩
  rw [msg_apply, hn_apply]
  show lnAt (fun k => V1 m ρ c main_arg0 (ix2 r k)) (V1 m ρ c main_v19 (ix2 (0 : Fin 1) q)) (V1 m ρ c main_v20 (ix2 (0 : Fin 1) q)) q
      * V1 m ρ c main_v16 (ix2 r (0 : Fin 1)) = _
  rw [V1_features, V1_scale_apply, V1_shift_apply, V1_outdeg_apply]

/-- With every source index in range, the kernel's result array is the reference's result. -/
theorem result_eq (c : Dev nD)
    (hr : ∀ k, -(50000 : Int) ≤ (val_main_v1 (F := Ideal) (m ((c : Thread nD τ).loc main_arg1)) k).toInt
      ∧ (val_main_v1 (F := Ideal) (m ((c : Thread nD τ).loc main_arg1)) k).toInt < 50000) :
    W5 m ρ c (Proc.devRef .tc main_v31)
      = val_main_v60 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hagg := V4_agg m ρ c (m ((c : Thread nD τ).loc main_arg0)) (m ((c : Thread nD τ).loc main_arg2)) (m ((c : Thread nD τ).loc main_arg3)) hr (msg_eq m ρ c)
  refine (W5_arr m ρ c 6).trans ?_
  rw [region1_out]
  funext i
  obtain ⟨r, q, rfl⟩ : ∃ (r : Fin 50000) (q : Fin 128), i = ix2 r q := ⟨i 0, i 1, eq_ix2 i⟩
  rw [out_apply]
  show linAt (fun k => V4 m ρ c main_v21_0 (ix2 r k)) (fun k => V4 m ρ c main_v25 (ix2 r k)) (V4 m ρ c main_v18 (ix2 r (0 : Fin 1)))
      (fun k => V4 m ρ c main_v27 (ix2 k q)) (fun k => V4 m ρ c main_v29 (ix2 k q)) (V4 m ρ c main_v30 (ix2 (0 : Fin 1) q)) = _
  rw [V4_hn, hn_eq, hagg, V4_indeg_apply, V4_bias_apply]
  congr 1
  · funext k; exact V4_w1_apply m ρ c k q
  · funext k; exact V4_w2_apply m ρ c k q

end Cert.KernelIdeal.Bridge

end
-- ==== Proof.PreDecode.lean ====
/-
  The index range the precondition states, read out of its printed form.

  The precondition is a conjunction of `jnp.all`s. Its last two say that every entry of row 0 of the edge array — the
  edges' source nodes — is at least -50000 and below 50000: the range in which an index into an axis of extent 50000
  is defined. An `and` that is 1 has both operands 1, an `and`-reduction that is 1 has every entry 1, and a signed
  comparison word that is 1 is the comparison of the signed values.
-/
import proofs.«419021_j10359461118094_1_alg».proof.Defs
import proofs.«419021_j10359461118094_1_alg».proof.Proof.Gen.ReferenceIdeal.Read
import Idealize.ShloMosaic.Lib.ReduceAll
import Idealize.ShloMosaic.Lib.ValueIdx
import Idealize.ShloMosaic.Lib.StableHlo.Predicate

set_option maxRecDepth 16384

noncomputable section

namespace Cert.PreDecode

open Idealize.ShloMosaic Idealize.ShloMosaic.ValueIdx Idealize.SL.Sem

/-- The rank-0 shape has a single index. -/
private instance : Subsingleton Cert.Pre_finite_inputs.S_.Idx := ⟨fun a b => funext fun d => d.elim0⟩

/-- The last part of the chain is an `and` of the conjunction so far with the `and`-reduction of the last mask: if it is 1,
    the conjunction so far is 1 and every entry of the mask is 1. -/
private theorem part2_eq_one [hP : Cert.Pre_finite_inputs.Facts] {F : FTy → Type} [FloatOps F]
    (v29 : IVec Cert.Pre_finite_inputs.S_ 1) (v33 : IVec Cert.Pre_finite_inputs.S600000 1)
    (c11 : IVec Cert.Pre_finite_inputs.S_ 1)
    (h : Cert.Pre_finite_inputs.fn_part2 (F := F) v29 v33 c11 = fun _ => 1#1) :
    v29 ix0 = 1#1 ∧ ∀ i, v33 i = 1#1 := by
  have h0 := congrFun h ix0
  obtain ⟨ha, hb⟩ := IntOp.andi_eq_one.1 h0
  exact ⟨ha, fun i => Host.reduce_andi_all v33 c11 _ _ ix0 hb i⟩

/-- The middle part of the chain, whatever conjunction it is handed: if it is 1, every entry of row 0 of the edge array,
    read signed, is at least -50000 (the word 4294917296) and below 50000. Only the last two conjuncts are opened; the
    earlier ones stay the opaque left operand of an `and`. -/
private theorem part1_eq_one [hP : Cert.Pre_finite_inputs.Facts] {F : FTy → Type} [FloatOps F]
    (a1 : IVec Cert.Pre_finite_inputs.S2x600000 32) (a5 : FVec F Cert.Pre_finite_inputs.S128 .f32)
    (v13 : IVec Cert.Pre_finite_inputs.S_ 1) (v16 : IVec Cert.Pre_finite_inputs.S128x256 1)
    (h : Cert.Pre_finite_inputs.fn_part1 (F := F) a1 a5 v13 v16 = fun _ => 1#1) :
    ∀ i : Cert.Pre_finite_inputs.S600000.Idx,
      -(50000 : Int) ≤ (shapeCast Cert.Pre_finite_inputs.S600000
          (extractStridedSlice Cert.Pre_finite_inputs.S1x600000 ![0, 0] a1
            Cert.Pre_finite_inputs.Facts.slices_S2x600000_S1x600000_0_0)
          Cert.Pre_finite_inputs.Facts.shapeCasts_S1x600000_S600000 i).toInt
      ∧ (shapeCast Cert.Pre_finite_inputs.S600000
          (extractStridedSlice Cert.Pre_finite_inputs.S1x600000 ![0, 0] a1
            Cert.Pre_finite_inputs.Facts.slices_S2x600000_S1x600000_0_0)
          Cert.Pre_finite_inputs.Facts.shapeCasts_S1x600000_S600000 i).toInt < 50000 := by
  intro i
  obtain ⟨h29, h33⟩ := part2_eq_one (F := F) _ _ _ h
  obtain ⟨-, h28⟩ := IntOp.andi_eq_one.1 h29
  have hge := Host.reduce_andi_all _ _ _ _ ix0 h28 i
  have hlt := h33 i
  have e1 : (4294917296#32 : BitVec 32).toInt = -50000 := by decide
  have e2 : (50000#32 : BitVec 32).toInt = 50000 := by decide
  refine ⟨?_, ?_⟩
  · -- the comparison word at an index is the signed comparison of row 0 there with the broadcast constant there
    have := IntOp.cmpi_sge.1 hge
    rw [show (broadcastInDim Cert.Pre_finite_inputs.S600000 ![] Cert.Pre_finite_inputs.Facts.bcast_S_S600000
          (constantI Cert.Pre_finite_inputs.S_ 32 4294917296#32) i) = 4294917296#32 from rfl, e1] at this
    exact this
  · have := IntOp.cmpi_slt.1 hlt
    rw [show (broadcastInDim Cert.Pre_finite_inputs.S600000 ![] Cert.Pre_finite_inputs.Facts.bcast_S_S600000
          (constantI Cert.Pre_finite_inputs.S_ 32 50000#32) i) = 50000#32 from rfl, e2] at this
    exact this

/-- Under the precondition every source index (row 0 of the edge array, as the programs read it) lies in `[-50000, 50000)`. -/
theorem src_in_range [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ k, -(50000 : Int) ≤ (Cert.ReferenceIdeal.Read.val_main_v1 (F := Ideal)
          (m ((c.tc : Thread Cert.KernelIdeal.nD Cert.KernelIdeal.τ).loc Cert.KernelIdeal.main_arg1)) k).toInt
      ∧ (Cert.ReferenceIdeal.Read.val_main_v1 (F := Ideal)
          (m ((c.tc : Thread Cert.KernelIdeal.nD Cert.KernelIdeal.τ).loc Cert.KernelIdeal.main_arg1)) k).toInt < 50000 := by
  intro k
  -- the whole chain unfolds to its middle part applied to the earlier conjuncts; the reference's row 0 is the same
  -- slice and reshape of the same array
  exact part1_eq_one (F := Ideal) _ _ _ _ (hpre c) k

end Cert.PreDecode

end
-- ==== Proof.lean ====
/-
  The certificate: one GCN layer (LayerNorm, symmetric degree normalisation around a gather / scatter-add over the
  edges, a linear map on the concatenation) as two pallas_calls with host operations between them, against the
  layer written in plain jnp.

  The three programs run and leave their arguments as launched (the frames). The kernel's idealization rewrote no
  operation. At the ideal values, from memories that agree on the arguments, the kernel's result array and the
  reference's are the same function of the arguments — under the precondition that every float input is finite
  (never used: the two sides are the same sums in another grouping) and that every source-node index lies in
  `[-50000, 50000)`, outside which the reference's own indexing is out of range and the kernel's gather fills instead.
-/
import proofs.«419021_j10359461118094_1_alg».proof.Defs
import proofs.«419021_j10359461118094_1_alg».proof.Proof.Gen.Kernel
import proofs.«419021_j10359461118094_1_alg».proof.Proof.Gen.Kernel.Skeleton
import proofs.«419021_j10359461118094_1_alg».proof.Proof.Gen.Kernel.Launch
import proofs.«419021_j10359461118094_1_alg».proof.Proof.Gen.Kernel.Points
import proofs.«419021_j10359461118094_1_alg».proof.Proof.Gen.Kernel.Frame
import proofs.«419021_j10359461118094_1_alg».proof.Proof.Gen.KernelIdeal
import proofs.«419021_j10359461118094_1_alg».proof.Proof.Gen.KernelIdeal.Skeleton
import proofs.«419021_j10359461118094_1_alg».proof.Proof.Gen.KernelIdeal.Launch
import proofs.«419021_j10359461118094_1_alg».proof.Proof.Gen.KernelIdeal.Points
import proofs.«419021_j10359461118094_1_alg».proof.Proof.Gen.KernelIdeal.Frame
import proofs.«419021_j10359461118094_1_alg».proof.Proof.Gen.ReferenceIdeal
import proofs.«419021_j10359461118094_1_alg».proof.Proof.Gen.ReferenceIdeal.Run
import proofs.«419021_j10359461118094_1_alg».proof.Proof.Gen.ReferenceIdeal.Read
import proofs.«419021_j10359461118094_1_alg».proof.Proof.Gen.Pre_finite_inputs
import proofs.«419021_j10359461118094_1_alg».proof.Proof.KRun
import proofs.«419021_j10359461118094_1_alg».proof.Proof.Bridge
import proofs.«419021_j10359461118094_1_alg».proof.Proof.PreDecode
import Idealize.ShloMosaic.Adequacy
import Idealize.ShloMosaic.Init

noncomputable section

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result array is the reference's result of the same arguments. -/
theorem algebraic : Cert.algebraic_KernelIdeal_ReferenceIdeal := by
  intro m ρ m' ρ' hpre hagree
  refine ⟨fun c => Cert.ReferenceIdeal.Read.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.result_eq m ρ c (Cert.PreDecode.src_in_range m hpre c)), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v60_eq, (hagree c).1, (hagree c).2.1, (hagree c).2.2.1, (hagree c).2.2.2.1,
      (hagree c).2.2.2.2.1, (hagree c).2.2.2.2.2]

end Cert.Proof.Claims

end

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
